-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S2x768x512 .f32 .bf16
  ∧ IdealRules.truncf_extf.Statement Cert.KernelIdeal.S2x256x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x512 : Shape := ⟨3, ![128, 256, 512]⟩
abbrev S128x768x512 : Shape := ⟨3, ![128, 768, 512]⟩
abbrev S512 : Shape := ⟨1, ![512]⟩
abbrev S128x768 : Shape := ⟨2, ![128, 768]⟩
abbrev S128x256 : Shape := ⟨2, ![128, 256]⟩
abbrev S_ : Shape := ⟨0, ![]⟩
abbrev S128x768x768 : Shape := ⟨3, ![128, 768, 768]⟩
abbrev S128x256x256 : Shape := ⟨3, ![128, 256, 256]⟩
abbrev S128x768x256 : Shape := ⟨3, ![128, 768, 256]⟩

class Facts : Prop where
  bcast_S_S128x256x512 : S_.BroadcastsInDim S128x256x512 (![] : Fin 0 → Fin S128x256x512.rank)
  reducesTo_S128x256x512_S_d0_1_2 : S128x256x512.ReducesTo [0, 1, 2] S_
  h_S_ : 0 < S_.numel
  bcast_S_S128x768x512 : S_.BroadcastsInDim S128x768x512 (![] : Fin 0 → Fin S128x768x512.rank)
  reducesTo_S128x768x512_S_d0_1_2 : S128x768x512.ReducesTo [0, 1, 2] S_
  bcast_S_S512 : S_.BroadcastsInDim S512 (![] : Fin 0 → Fin S512.rank)
  reducesTo_S512_S_d0 : S512.ReducesTo [0] S_
  bcast_S_S128x768 : S_.BroadcastsInDim S128x768 (![] : Fin 0 → Fin S128x768.rank)
  reducesTo_S128x768_S_d0_1 : S128x768.ReducesTo [0, 1] S_
  bcast_S_S128x256 : S_.BroadcastsInDim S128x256 (![] : Fin 0 → Fin S128x256.rank)
  reducesTo_S128x256_S_d0_1 : S128x256.ReducesTo [0, 1] S_
  bcast_S128x768_S128x768x768_0_1 : S128x768.BroadcastsInDim S128x768x768 (![0, 1] : Fin 2 → Fin S128x768x768.rank)
  bcast_S128x768_S128x768x768_0_2 : S128x768.BroadcastsInDim S128x768x768 (![0, 2] : Fin 2 → Fin S128x768x768.rank)
  reducesTo_S128x768x768_S_d0_1_2 : S128x768x768.ReducesTo [0, 1, 2] S_
  bcast_S128x256_S128x256x256_0_1 : S128x256.BroadcastsInDim S128x256x256 (![0, 1] : Fin 2 → Fin S128x256x256.rank)
  bcast_S128x256_S128x256x256_0_2 : S128x256.BroadcastsInDim S128x256x256 (![0, 2] : Fin 2 → Fin S128x256x256.rank)
  reducesTo_S128x256x256_S_d0_1_2 : S128x256x256.ReducesTo [0, 1, 2] S_
  bcast_S128x768_S128x768x256_0_1 : S128x768.BroadcastsInDim S128x768x256 (![0, 1] : Fin 2 → Fin S128x768x256.rank)
  bcast_S128x256_S128x768x256_0_2 : S128x256.BroadcastsInDim S128x768x256 (![0, 2] : Fin 2 → Fin S128x768x256.rank)
  reducesTo_S128x768x256_S_d0_1_2 : S128x768x256.ReducesTo [0, 1, 2] S_

variable [Facts]

def fn_part3 {F : FTy → Type} [FloatOps F] (main_arg5 : IVec S128x768 32) (main_arg6 : IVec S128x256 32) (main_v46 : IVec S_ 1) (main_v53 : IVec S128x256x256 1) (main_c_15 : IVec S_ 1) : IVec S_ 1 :=
  let main_v54 : IVec S_ 1 := (fun x v => Host.reduce IntOp.andi x v reducesTo_S128x256x256_S_d0_1_2 h_S_) main_v53 main_c_15
  let main_v55 : IVec S_ 1 := andi main_v46 main_v54
  let main_v56 : IVec S128x768x256 32 := broadcastInDim S128x768x256 ![0, 1] bcast_S128x768_S128x768x256_0_1 main_arg5
  let main_v57 : IVec S128x768x256 32 := broadcastInDim S128x768x256 ![0, 2] bcast_S128x256_S128x768x256_0_2 main_arg6
  let main_v58 : IVec S128x768x256 1 := cmpi .ne main_v56 main_v57
  let main_c_16 : IVec S_ 1 := constantI S_ 1 1#1
  let main_v59 : IVec S_ 1 := (fun x v => Host.reduce IntOp.andi x v reducesTo_S128x768x256_S_d0_1_2 h_S_) main_v58 main_c_16
  let main_v60 : IVec S_ 1 := andi main_v55 main_v59
  main_v60

def fn_part2 {F : FTy → Type} [FloatOps F] (main_arg5 : IVec S128x768 32) (main_arg6 : IVec S128x256 32) (main_v30 : IVec S_ 1) (main_v32 : IVec S128x256 1) (main_c_12 : IVec S_ 32) : IVec S_ 1 :=
  let main_v33 : IVec S128x256 32 := broadcastInDim S128x256 ![] bcast_S_S128x256 main_c_12
  let main_v34 : IVec S128x256 1 := cmpi .slt main_arg6 main_v33
  let main_v35 : IVec S128x256 1 := andi main_v32 main_v34
  let main_c_13 : IVec S_ 1 := constantI S_ 1 1#1
  let main_v36 : IVec S_ 1 := (fun x v => Host.reduce IntOp.andi x v reducesTo_S128x256_S_d0_1 h_S_) main_v35 main_c_13
  let main_v37 : IVec S_ 1 := andi main_v30 main_v36
  let main_v38 : IVec S128x768x768 32 := broadcastInDim S128x768x768 ![0, 1] bcast_S128x768_S128x768x768_0_1 main_arg5
  let main_v39 : IVec S128x768x768 32 := broadcastInDim S128x768x768 ![0, 2] bcast_S128x768_S128x768x768_0_2 main_arg5
  let main_v40 : IVec S128x768x768 32 := iotaInDim S128x768x768 32 1
  let main_v41 : IVec S128x768x768 32 := iotaInDim S128x768x768 32 2
  let main_v42 : IVec S128x768x768 1 := cmpi .ne main_v38 main_v39
  let main_v43 : IVec S128x768x768 1 := cmpi .eq main_v40 main_v41
  let main_v44 : IVec S128x768x768 1 := ori main_v42 main_v43
  let main_c_14 : IVec S_ 1 := constantI S_ 1 1#1
  let main_v45 : IVec S_ 1 := (fun x v => Host.reduce IntOp.andi x v reducesTo_S128x768x768_S_d0_1_2 h_S_) main_v44 main_c_14
  let main_v46 : IVec S_ 1 := andi main_v37 main_v45
  let main_v47 : IVec S128x256x256 32 := broadcastInDim S128x256x256 ![0, 1] bcast_S128x256_S128x256x256_0_1 main_arg6
  let main_v48 : IVec S128x256x256 32 := broadcastInDim S128x256x256 ![0, 2] bcast_S128x256_S128x256x256_0_2 main_arg6
  let main_v49 : IVec S128x256x256 32 := iotaInDim S128x256x256 32 1
  let main_v50 : IVec S128x256x256 32 := iotaInDim S128x256x256 32 2
  let main_v51 : IVec S128x256x256 1 := cmpi .ne main_v47 main_v48
  let main_v52 : IVec S128x256x256 1 := cmpi .eq main_v49 main_v50
  let main_v53 : IVec S128x256x256 1 := ori main_v51 main_v52
  let main_c_15 : IVec S_ 1 := constantI S_ 1 1#1
  fn_part3 (F := F) main_arg5 main_arg6 main_v46 main_v53 main_c_15

def fn_part1 {F : FTy → Type} [FloatOps F] (main_arg4 : FVec F S512 .f32) (main_arg5 : IVec S128x768 32) (main_arg6 : IVec S128x256 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_c_8 : IVec S_ 32 := constantI S_ 32 0#32
  let main_v24 : IVec S128x768 32 := broadcastInDim S128x768 ![] bcast_S_S128x768 main_c_8
  let main_v25 : IVec S128x768 1 := cmpi .sge main_arg5 main_v24
  let main_c_9 : IVec S_ 32 := constantI S_ 32 1024#32
  let main_v26 : IVec S128x768 32 := broadcastInDim S128x768 ![] bcast_S_S128x768 main_c_9
  let main_v27 : IVec S128x768 1 := cmpi .slt main_arg5 main_v26
  let main_v28 : IVec S128x768 1 := andi main_v25 main_v27
  let main_c_10 : IVec S_ 1 := constantI S_ 1 1#1
  let main_v29 : IVec S_ 1 := (fun x v => Host.reduce IntOp.andi x v reducesTo_S128x768_S_d0_1 h_S_) main_v28 main_c_10
  let main_v30 : IVec S_ 1 := andi main_v23 main_v29
  let main_c_11 : IVec S_ 32 := constantI S_ 32 0#32
  let main_v31 : IVec S128x256 32 := broadcastInDim S128x256 ![] bcast_S_S128x256 main_c_11
  let main_v32 : IVec S128x256 1 := cmpi .sge main_arg6 main_v31
  let main_c_12 : IVec S_ 32 := constantI S_ 32 1024#32
  fn_part2 (F := F) main_arg5 main_arg6 main_v30 main_v32 main_c_12

def fn {F : FTy → Type} [FloatOps F] (main_arg0 : FVec F S128x256x512 .f32) (main_arg1 : FVec F S128x256x512 .f32) (main_arg2 : FVec F S128x768x512 .f32) (main_arg3 : FVec F S512 .f32) (main_arg4 : FVec F S512 .f32) (main_arg5 : IVec S128x768 32) (main_arg6 : IVec S128x256 32) : IVec S_ 1 :=
  let main_v0 : FVec F S128x256x512 .f32 := Host.absf main_arg0
  let main_cst : FVec F S_ .f32 := constant S_ .f32 0x7F800000#32
  let main_v1 : FVec F S128x256x512 .f32 := broadcastInDim S128x256x512 ![] bcast_S_S128x256x512 main_cst
  let main_v2 : IVec S128x256x512 1 := cmpf .olt main_v0 main_v1
  let main_c : IVec S_ 1 := constantI S_ 1 1#1
  let main_v3 : IVec S_ 1 := (fun x v => Host.reduce IntOp.andi x v reducesTo_S128x256x512_S_d0_1_2 h_S_) main_v2 main_c
  let main_v4 : FVec F S128x256x512 .f32 := Host.absf main_arg1
  let main_cst_0 : FVec F S_ .f32 := constant S_ .f32 0x7F800000#32
  let main_v5 : FVec F S128x256x512 .f32 := broadcastInDim S128x256x512 ![] bcast_S_S128x256x512 main_cst_0
  let main_v6 : IVec S128x256x512 1 := cmpf .olt main_v4 main_v5
  let main_c_1 : IVec S_ 1 := constantI S_ 1 1#1
  let main_v7 : IVec S_ 1 := (fun x v => Host.reduce IntOp.andi x v reducesTo_S128x256x512_S_d0_1_2 h_S_) main_v6 main_c_1
  let main_v8 : IVec S_ 1 := andi main_v3 main_v7
  let main_v9 : FVec F S128x768x512 .f32 := Host.absf main_arg2
  let main_cst_2 : FVec F S_ .f32 := constant S_ .f32 0x7F800000#32
  let main_v10 : FVec F S128x768x512 .f32 := broadcastInDim S128x768x512 ![] bcast_S_S128x768x512 main_cst_2
  let main_v11 : IVec S128x768x512 1 := cmpf .olt main_v9 main_v10
  let main_c_3 : IVec S_ 1 := constantI S_ 1 1#1
  let main_v12 : IVec S_ 1 := (fun x v => Host.reduce IntOp.andi x v reducesTo_S128x768x512_S_d0_1_2 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_v13 main_v16
-- ==== Kernel.lean ====
abbrev S128x256x512 : Shape := ⟨3, ![128, 256, 512]⟩
abbrev S128x768x512 : Shape := ⟨3, ![128, 768, 512]⟩
abbrev S512 : Shape := ⟨1, ![512]⟩
abbrev S128x768 : Shape := ⟨2, ![128, 768]⟩
abbrev S128x256 : Shape := ⟨2, ![128, 256]⟩
abbrev S128x1x768 : Shape := ⟨3, ![128, 1, 768]⟩
abbrev S128x1x256 : Shape := ⟨3, ![128, 1, 256]⟩
abbrev S128x1024x512 : Shape := ⟨3, ![128, 1024, 512]⟩
abbrev S2x256x512 : Shape := ⟨3, ![2, 256, 512]⟩
abbrev S2x768x512 : Shape := ⟨3, ![2, 768, 512]⟩
abbrev S2x1x768 : Shape := ⟨3, ![2, 1, 768]⟩
abbrev S2x1x256 : Shape := ⟨3, ![2, 1, 256]⟩
abbrev S2x1024x512 : Shape := ⟨3, ![2, 1024, 512]⟩
abbrev S2x256 : Shape := ⟨2, ![2, 256]⟩
abbrev S2x256x1 : Shape := ⟨3, ![2, 256, 1]⟩
abbrev S1x1x512 : Shape := ⟨3, ![1, 1, 512]⟩
abbrev S1x1024x1 : Shape := ⟨3, ![1, 1024, 1]⟩
abbrev S2x1024x768 : Shape := ⟨3, ![2, 1024, 768]⟩
abbrev S2x1024x256 : Shape := ⟨3, ![2, 1024, 256]⟩
abbrev S2x1024x1024 : Shape := ⟨3, ![2, 1024, 1024]⟩

abbrev nBuf : Space → Nat
  | .hbm => 10
  | .vmem => 14
  | .smem => 0
  | _ => 0

abbrev bufTy : (tb : Table) → Fin (tcTables nBuf tb) → BufTy
  | .hbm, ⟨0, _⟩ => ⟨S128x256x512, .f32⟩
  | .hbm, ⟨1, _⟩ => ⟨S128x256x512, .f32⟩
  | .hbm, ⟨2, _⟩ => ⟨S128x768x512, .f32⟩
  | .hbm, ⟨3, _⟩ => ⟨S512, .f32⟩
  | .hbm, ⟨4, _⟩ => ⟨S512, .f32⟩
  | .hbm, ⟨5, _⟩ => ⟨S128x768, .i32⟩
  | .hbm, ⟨6, _⟩ => ⟨S128x256, .i32⟩
  | .hbm, ⟨7, _⟩ => ⟨S128x1x768, .i32⟩
  | .hbm, ⟨8, _⟩ => ⟨S128x1x256, .i32⟩
  | .hbm, ⟨9, _⟩ => ⟨S128x1024x512, .f32⟩
  | .local _ .vmem, ⟨0, _⟩ => ⟨S2x256x512, .f32⟩
  | .local _ .vmem, ⟨1, _⟩ => ⟨S2x256x512, .f32⟩
  | .local _ .vmem, ⟨2, _⟩ => ⟨S2x256x512, .f32⟩
  | .local _ .vmem, ⟨3, _⟩ => ⟨S2x256x512, .f32⟩
  | .local _ .vmem, ⟨4, _⟩ => ⟨S2x768x512, .f32⟩
  | .local _ .vmem, ⟨5, _⟩ => ⟨S2x768x512, .f32⟩
  | .local _ .vmem, ⟨6, _⟩ => ⟨S512, .f32⟩
  | .local _ .vmem, ⟨7, _⟩ => ⟨S512, .f32⟩
  | .local _ .vmem, ⟨8, _⟩ => ⟨S2x1x768, .i32⟩
  | .local _ .vmem, ⟨9, _⟩ => ⟨S2x1x768, .i32⟩
  | .local _ .vmem, ⟨10, _⟩ => ⟨S2x1x256, .i32⟩
  | .local _ .vmem, ⟨11, _⟩ => ⟨S2x1x256, .i32⟩
  | .local _ .vmem, ⟨12, _⟩ => ⟨S2x1024x512, .f32⟩
  | .local _ .vmem, ⟨13, _⟩ => ⟨S2x1024x512, .f32⟩
  | _, _ => ⟨S128x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x1x768 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128x768_S128x1x768 : S128x768.ShapeCasts S128x1x768
  shapeCasts_S128x256_S128x1x256 : S128x256.ShapeCasts S128x1x256
  inb_S2x256x512_S2x256x512_0_0_0 : ∀ a, (![0, 0, 0] : Fin 3 → Nat) a + S2x256x512.size a ≤ S2x256x512.size a
  h_S2x256x512 : 0 < S2x256x512.numel
  reduces_S2x256x512_S2x256 : S2x256x512.Reduces [2] S2x256
  shapeCasts_S2x256_S2x256x1 : S2x256.ShapeCasts S2x256x1
  broadcasts_S2x256x1_S2x256x512 : S2x256x1.Broadcasts S2x256x512
  inb_S512_S512_0 : ∀ a, (![0] : Fin 1 → Nat) a + S512.size a ≤ S512.size a
  h_S512 : 0 < S512.numel
  shapeCasts_S512_S1x1x512 : S512.ShapeCasts S1x1x512
  broadcasts_S1x1x512_S2x256x512 : S1x1x512.Broadcasts S2x256x512
  inb_S2x1x768_S2x1x768_0_0_0 : ∀ a, (![0, 0, 0] : Fin 3 → Nat) a + S2x1x768.size a ≤ S2x1x768.size a
  h_S2x1x768 : 0 < S2x1x768.numel
  shapeCasts_S2x1x768_S2x1x768 : S2x1x768.ShapeCasts S2x1x768
  inb_S2x1x256_S2x1x256_0_0_0 : ∀ a, (![0, 0, 0] : Fin 3 → Nat) a + S2x1x256.size a ≤ S2x1x256.size a
  h_S2x1x256 : 0 < S2x1x256.numel
  shapeCasts_S2x1x256_S2x1x256 : S2x1x256.ShapeCasts S2x1x256
  iota_S1x1024x1_d1_w32 : S1x1024x1.Iotas .tc 32 [1]
  broadcasts_S1x1024x1_S2x1024x768 : S1x1024x1.Broadcasts S2x1024x768
  broadcasts_S2x1x768_S2x1024x768 : S2x1x768.Broadcasts S2x1024x768
  natLt_1_32 : 1 < 32
  bitsLt_bf16_f32 : FTy.bits .bf16 < FTy.bits .f32
  broadcasts_S1x1024x1_S2x1024x256 : S1x1024x1.Broadcasts S2x1024x256
  broadcasts_S2x1x256_S2x1024x256 : S2x1x256.Broadcasts S2x1024x256
  concatenates_S2x1024x768_S2x1024x256_S2x1024x1024_d2 : Shape.Concatenates [S2x1024x768, S2x1024x256] S2x1024x1024 2
  inb_S2x768x512_S2x768x512_0_0_0 : ∀ a, (![0, 0, 0] : Fin 3 → Nat) a + S2x768x512.size a ≤ S2x768x512.size a
  h_S2x768x512 : 0 < S2x768x512.numel
  concatenates_S2x768x512_S2x256x512_S2x1024x512_d1 : Shape.Concatenates [S2x768x512, S2x256x512] S2x1024x512 1
  inb_S2x1024x512_S2x1024x512_0_0_0 : ∀ a, (![0, 0, 0] : Fin 3 → Nat) a + S2x1024x512.size a ≤ S2x1024x512.size a
  h_S2x1024x512 : 0 < S2x1024x512.numel
  dot_S2x1024x1024_S2x1024x512_S2x1024x512_2_1_1_2_0_0_wf : DotDims.WF S2x1024x1024 S2x1024x512 S2x1024x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x512.size a ≤ S128x256x512.size a
  hwx0_0 : ∀ i : grid0.Coords, EltTy.bits .f32 = 32 ∨ (Rect.block (s := S128x256x512) S2x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x512.size a ≤ S128x256x512.size a
  hwx0_1 : ∀ i : grid0.Coords, EltTy.bits .f32 = 32 ∨ (Rect.block (s := S128x256x512) S2x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x768x512.size a ≤ S128x768x512.size a
  hwx0_2 : ∀ i : grid0.Coords, EltTy.bits .f32 = 32 ∨ (Rect.block (s := S128x768x512) S2x768x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1x768.size a ≤ S128x1x768.size a
  hwx0_5 : ∀ i : grid0.Coords, EltTy.bits .i32 = 32 ∨ (Rect.block (s := S128x1x768) S2x1x768.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x1x256.size a ≤ S128x1x256.size a
  hwx0_6 : ∀ i : grid0.Coords, EltTy.bits .i32 = 32 ∨ (Rect.block (s := S128x1x256) S2x1x256.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x1024x512.size a ≤ S128x1024x512.size a
  hwx0_7 : ∀ i : grid0.Coords, EltTy.bits .f32 = 32 ∨ (Rect.block (s := S128x1024x512) S2x1024x512.size (cc0_transform_7 i) (hinb0_7 i)).WholeWords (EltTy.packing .f32)

variable [Facts₀]

def dot_S2x1024x1024_S2x1024x512_S2x1024x512_2_1_1_2_0_0 : DotDims S2x1024x1024 S2x1024x512 S2x1024x512 where
  lhsContracting := [2]
  rhsContracting := [1]
  lhsNonContracting := [1]
  rhsNonContracting := [2]
  lhsBatch := [0]
  rhsBatch := [0]
  wf := dot_S2x1024x1024_S2x1024x512_S2x1024x512_2_1_1_2_0_0_wf

abbrev win0_0 : Pipeline.Window sig grid0 :=
  Pipeline.Window.ofSpec (Memref.whole main_arg0) S2x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x768x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2x1x768.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S2x1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S2x1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x256x512 : Shape := ⟨3, ![128, 256, 512]⟩
abbrev S128x768x512 : Shape := ⟨3, ![128, 768, 512]⟩
abbrev S512 : Shape := ⟨1, ![512]⟩
abbrev S128x768 : Shape := ⟨2, ![128, 768]⟩
abbrev S128x256 : Shape := ⟨2, ![128, 256]⟩
abbrev S_ : Shape := ⟨0, ![]⟩
abbrev S128x256x1 : Shape := ⟨3, ![128, 256, 1]⟩
abbrev S1x1x512 : Shape := ⟨3, ![1, 1, 512]⟩
abbrev S128 : Shape := ⟨1, ![128]⟩
abbrev S128x1 : Shape := ⟨2, ![128, 1]⟩
abbrev S128x1024x512 : Shape := ⟨3, ![128, 1024, 512]⟩
abbrev S128x768x1 : Shape := ⟨3, ![128, 768, 1]⟩
abbrev S128x768x2 : Shape := ⟨3, ![128, 768, 2]⟩
abbrev S128x256x2 : Shape := ⟨3, ![128, 256, 2]⟩

abbrev nBuf : Space → Nat
  | .hbm => 79
  | .vmem => 0
  | .smem => 0
  | _ => 0

abbrev bufTy : (tb : Table) → Fin (tcTables nBuf tb) → BufTy
  | .hbm, ⟨0, _⟩ => ⟨S128x256x512, .f32⟩
  | .hbm, ⟨1, _⟩ => ⟨S128x256x512, .f32⟩
  | .hbm, ⟨2, _⟩ => ⟨S128x768x512, .f32⟩
  | .hbm, ⟨3, _⟩ => ⟨S512, .f32⟩
  | .hbm, ⟨4, _⟩ => ⟨S512, .f32⟩
  | .hbm, ⟨5, _⟩ => ⟨S128x768, .i32⟩
  | .hbm, ⟨6, _⟩ => ⟨S128x256, .i32⟩
  | .hbm, ⟨7, _⟩ => ⟨S128x256x512, .f32⟩
  | .hbm, ⟨8, _⟩ => ⟨S_, .f32⟩
  | .hbm, ⟨9, _⟩ => ⟨S128x256, .f32⟩
  | .hbm, ⟨10, _⟩ => ⟨S128x256x1, .f32⟩
  | .hbm, ⟨11, _⟩ => ⟨S_, .f32⟩
  | .hbm, ⟨12, _⟩ => ⟨S128x256x1, .f32⟩
  | .hbm, ⟨13, _⟩ => ⟨S128x256x1, .f32⟩
  | .hbm, ⟨14, _⟩ => ⟨S128x256x512, .f32⟩
  | .hbm, ⟨15, _⟩ => ⟨S128x256x512, .f32⟩
  | .hbm, ⟨16, _⟩ => ⟨S128x256x512, .f32⟩
  | .hbm, ⟨17, _⟩ => ⟨S_, .f32⟩
  | .hbm, ⟨18, _⟩ => ⟨S128x256, .f32⟩
  | .hbm, ⟨19, _⟩ => ⟨S128x256x1, .f32⟩
  | .hbm, ⟨20, _⟩ => ⟨S_, .f32⟩
  | .hbm, ⟨21, _⟩ => ⟨S128x256x1, .f32⟩
  | .hbm, ⟨22, _⟩ => ⟨S128x256x1, .f32⟩
  | .hbm, ⟨23, _⟩ => ⟨S128x256x512, .f32⟩
  | .hbm, ⟨24, _⟩ => ⟨S128x256x512, .f32⟩
  | .hbm, ⟨25, _⟩ => ⟨S_, .f32⟩
  | .hbm, ⟨26, _⟩ => ⟨S128x256x1, .f32⟩
  | .hbm, ⟨27, _⟩ => ⟨S128x256x1, .f32⟩
  | .hbm, ⟨28, _⟩ => ⟨S128x256x1, .f32⟩
  | .hbm, ⟨29, _⟩ => ⟨S128x256x512, .f32⟩
  | .hbm, ⟨30, _⟩ => ⟨S128x256x512, .f32⟩
  | .hbm, ⟨31, _⟩ => ⟨S1x1x512, .f32⟩
  | .hbm, ⟨32, _⟩ => ⟨S128x256x512, .f32⟩
  | .hbm, ⟨33, _⟩ => ⟨S128x256x512, .f32⟩
  | .hbm, ⟨34, _⟩ => ⟨S1x1x512, .f32⟩
  | .hbm, ⟨35, _⟩ => ⟨S128x256x512, .f32⟩
  | .hbm, ⟨36, _⟩ => ⟨S128x256x512, .f32⟩
  | .hbm, ⟨37, _⟩ => ⟨S128, .i32⟩
  | .hbm, ⟨38, _⟩ => ⟨S128x1, .i32⟩
  | .hbm, ⟨39, _⟩ => ⟨S_, .f32⟩
  | .hbm, ⟨40, _⟩ => ⟨S128x1024x512, .f32⟩
  | .hbm, ⟨41, _⟩ => ⟨S_, .i32⟩
  | .hbm, ⟨42, _⟩ => ⟨S128x1, .i32⟩
  | .hbm, ⟨43, _⟩ => ⟨S128x1, .i1⟩
  | .hbm, ⟨44, _⟩ => ⟨S_, .i32⟩
  | .hbm, ⟨45, _⟩ => ⟨S128x1, .i32⟩
  | .hbm, ⟨46, _⟩ => ⟨S128x1, .i32⟩
  | .hbm, ⟨47, _⟩ => ⟨S128x1, .i32⟩
  | .hbm, ⟨48, _⟩ => ⟨S_, .i32⟩
  | .hbm, ⟨49, _⟩ => ⟨S128x768, .i32⟩
  | .hbm, ⟨50, _⟩ => ⟨S128x768, .i1⟩
  | .hbm, ⟨51, _⟩ => ⟨S_, .i32⟩
  | .hbm, ⟨52, _⟩ => ⟨S128x768, .i32⟩
  | .hbm, ⟨53, _⟩ => ⟨S128x768, .i32⟩
  | .hbm, ⟨54, _⟩ => ⟨S128x768, .i32⟩
  | .hbm, ⟨55, _⟩ => ⟨S128x768, .i32⟩
  | .hbm, ⟨56, _⟩ => ⟨S128x768x1, .i32⟩
  | .hbm, ⟨57, _⟩ => ⟨S128x768x1, .i32⟩
  | .hbm, ⟨58, _⟩ => ⟨S128x768x2, .i32⟩
  | .hbm, ⟨59, _⟩ => ⟨S128x1024x512, .f32⟩
  | .hbm, ⟨60, _⟩ => ⟨S_, .i32⟩
  | .hbm, ⟨61, _⟩ => ⟨S128x1, .i32⟩
  | .hbm, ⟨62, _⟩ => ⟨S128x1, .i1⟩
  | .hbm, ⟨63, _⟩ => ⟨S_, .i32⟩
  | .hbm, ⟨64, _⟩ => ⟨S128x1, .i32⟩
  | .hbm, ⟨65, _⟩ => ⟨S128x1, .i32⟩
  | .hbm, ⟨66, _⟩ => ⟨S128x1, .i32⟩
  | .hbm, ⟨67, _⟩ => ⟨S_, .i32⟩
  | .hbm, ⟨68, _⟩ => ⟨S128x256, .i32⟩
  | .hbm, ⟨69, _⟩ => ⟨S128x256, .i1⟩
  | .hbm, ⟨70, _⟩ => ⟨S_, .i32⟩
  | .hbm, ⟨71, _⟩ => ⟨S128x256, .i32⟩
  | .hbm, ⟨72, _⟩ => ⟨S128x256, .i32⟩
  | .hbm, ⟨73, _⟩ => ⟨S128x256, .i32⟩
  | .hbm, ⟨74, _⟩ => ⟨S128x256, .i32⟩
  | .hbm, ⟨75, _⟩ => ⟨S128x256x1, .i32⟩
  | .hbm, ⟨76, _⟩ => ⟨S128x256x1, .i32⟩
  | .hbm, ⟨77, _⟩ => ⟨S128x256x2, .i32⟩
  | .hbm, ⟨78, _⟩ => ⟨S128x1024x512, .f32⟩
  | _, _ => ⟨S128x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_v49 : Ref sig .tc := ⟨.hbm, 69, rfl⟩
abbrev main_c_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  reducesTo_S128x256x512_S128x256_d2 : S128x256x512.ReducesTo [2] S128x256
  h_S_ : 0 < S_.numel
  bcast_S128x256_S128x256x1_0_1 : S128x256.BroadcastsInDim S128x256x1 (![0, 1] : Fin 2 → Fin S128x256x1.rank)
  bcast_S_S128x256x1 : S_.BroadcastsInDim S128x256x1 (![] : Fin 0 → Fin S128x256x1.rank)
  bcast_S128x256x1_S128x256x512_0_1_2 : S128x256x1.BroadcastsInDim S128x256x512 (![0, 1, 2] : Fin 3 → Fin S128x256x512.rank)
  bcast_S512_S1x1x512_2 : S512.BroadcastsInDim S1x1x512 (![2] : Fin 1 → Fin S1x1x512.rank)
  bcast_S1x1x512_S128x256x512_0_1_2 : S1x1x512.BroadcastsInDim S128x256x512 (![0, 1, 2] : Fin 3 → Fin S128x256x512.rank)
  bcast_S128_S128x1_0 : S128.BroadcastsInDim S128x1 (![0] : Fin 1 → Fin S128x1.rank)
  bcast_S_S128x1024x512 : S_.BroadcastsInDim S128x1024x512 (![] : Fin 0 → Fin S128x1024x512.rank)
  bcast_S_S128x1 : S_.BroadcastsInDim S128x1 (![] : Fin 0 → Fin S128x1.rank)
  bcast_S_S128x768 : S_.BroadcastsInDim S128x768 (![] : Fin 0 → Fin S128x768.rank)
  bcast_S128x1_S128x768_0_1 : S128x1.BroadcastsInDim S128x768 (![0, 1] : Fin 2 → Fin S128x768.rank)
  bcast_S128x768_S128x768x1_0_1 : S128x768.BroadcastsInDim S128x768x1 (![0, 1] : Fin 2 → Fin S128x768x1.rank)
  concatenates_S128x768x1_S128x768x1_S128x768x2_d2 : Shape.Concatenates [S128x768x1, S128x768x1] S128x768x2 2
  bcast_S_S128x256 : S_.BroadcastsInDim S128x256 (![] : Fin 0 → Fin S128x256.rank)
  bcast_S128x1_S128x256_0_1 : S128x1.BroadcastsInDim S128x256 (![0, 1] : Fin 2 → Fin S128x256.rank)
  concatenates_S128x256x1_S128x256x1_S128x256x2_d2 : Shape.Concatenates [S128x256x1, S128x256x1] S128x256x2 2
  scatter_S128x1024x512_S128x768x2_S128x768x512_2_01_01_2_wf : ScatterDims.WF S128x1024x512 S128x768x2 S128x768x512 [2] [0, 1] [0, 1] 2
  scatter_S128x1024x512_S128x256x2_S128x256x512_2_01_01_2_wf : ScatterDims.WF S128x1024x512 S128x256x2 S128x256x512 [2] [0, 1] [0, 1] 2

variable [Facts₀]

def scatter_S128x1024x512_S128x768x2_S128x768x512_2_01_01_2 : ScatterDims S128x1024x512 S128x768x2 S128x768x512 where
  updateWindowDims := [2]
  insertedWindowDims := [0, 1]
  scatterDimsToOperandDims := [0, 1]
  indexVectorDim := 2
  wf := scatter_S128x1024x512_S128x768x2_S128x768x512_2_01_01_2_wf
def scatter_S128x1024x512_S128x256x2_S128x256x512_2_01_01_2 : ScatterDims S128x1024x512 S128x256x2 S128x256x512 where
  updateWindowDims := [2]
  insertedWindowDims := [0, 1]
  scatterDimsToOperandDims := [0, 1]
  indexVectorDim := 2
  wf := scatter_S128x1024x512_S128x256x2_S128x256x512_2_01_01_2_wf

class Facts : Prop extends Facts₀ where

variable [Facts]
-- ==== Proof.Spec.lean ====
import Idealize.ShloMosaic.PureOps.Ideal
import Idealize.ShloMosaic.Lib.ValueIdx

/-! # What the decoder input is, one sample at a time

A sample has 256 visible rows and 768 masked rows of 512 features. The visible rows are the
layer-normalised sums of an encoder row and a position row; the masked rows are given. Each row
carries the position in `[0, 1024)` it goes to. Position `t` of the result is the sum of the rows
whose position is `t` (zero if there is none): when the positions are pairwise distinct that sum
has at most one term and the result is the scatter of the rows to their positions. -/

noncomputable section

namespace Cert.Spec

open Idealize.ShloMosaic Idealize.ShloMosaic.ValueIdx
open scoped BigOperators

/-- The row length 512 and the variance's epsilon, as the binary32 words both programs carry. -/
def c512 : EReal := Ideal.ofBits .f32 0x44000000#32
def eps : EReal := Ideal.ofBits .f32 0x3727C5AC#32

/-- The mean of a row: its sum divided by 512. -/
def rowMean (x : Fin 512 → EReal) : EReal := Ideal.div (∑ k : Fin 512, x k) c512

/-- A row minus its mean. -/
def centred (x : Fin 512 → EReal) (k : Fin 512) : EReal := x k - rowMean x

/-- Layer normalisation of one row `x` with scale `g` and shift `be`:
    `(x - mean) * rsqrt(var + eps) * g + be`, the variance the mean of the squared centred row. -/
def lnRow (x g be : Fin 512 → EReal) (k : Fin 512) : EReal :=
  centred x k * Ideal.rsqrt (rowMean (fun j => centred x j * centred x j) + eps) * g k + be k

/-- One sample's result at position `t`, feature `k`: the masked rows sent to `t` plus the normalised
    visible rows sent to `t`. -/
def sample (e p : Fin 256 → Fin 512 → EReal) (me : Fin 768 → Fin 512 → EReal) (g be : Fin 512 → EReal)
    (mid : Fin 768 → BitVec 32) (uid : Fin 256 → BitVec 32) (t : Fin 1024) (k : Fin 512) : EReal :=
  (∑ n : Fin 768, if BitVec.ofNat 32 t.val = mid n then me n k else 0)
    + ∑ n : Fin 256, if BitVec.ofNat 32 t.val = uid n then lnRow (fun j => e n j + p n j) g be k else 0

/-- The whole result array: sample `b` of the argument arrays, at every `(b, t, k)`. -/
def decArr (e p : (⟨3, ![128, 256, 512]⟩ : Shape).Idx → EReal) (me : (⟨3, ![128, 768, 512]⟩ : Shape).Idx → EReal)
    (g be : (⟨1, ![512]⟩ : Shape).Idx → EReal) (mid : (⟨2, ![128, 768]⟩ : Shape).Idx → BitVec 32)
    (uid : (⟨2, ![128, 256]⟩ : Shape).Idx → BitVec 32) : (⟨3, ![128, 1024, 512]⟩ : Shape).Idx → EReal := fun i =>
  sample (fun n j => e (ix3 (i 0) n j)) (fun n j => p (ix3 (i 0) n j)) (fun n j => me (ix3 (i 0) n j))
    (fun j => g (ix1 j)) (fun j => be (ix1 j)) (fun n => mid (ix2 (i 0) n)) (fun n => uid (ix2 (i 0) n)) (i 1) (i 2)

/-- Every entry of an array is a real number. -/
def AllReal {s : Shape} (x : s.Idx → EReal) : Prop := ∀ i, ∃ r : ℝ, x i = (r : EReal)

/-- The positions of every sample are in `[0, 1024)`, pairwise distinct among the masked rows, pairwise
    distinct among the visible rows, and no masked row shares its position with a visible row. -/
structure IdsOk (mid : (⟨2, ![128, 768]⟩ : Shape).Idx → BitVec 32) (uid : (⟨2, ![128, 256]⟩ : Shape).Idx → BitVec 32) : Prop where
  range_m : ∀ (b : Fin 128) (n : Fin 768), 0 ≤ (mid (ix2 b n)).toInt ∧ (mid (ix2 b n)).toInt < 1024
  range_u : ∀ (b : Fin 128) (n : Fin 256), 0 ≤ (uid (ix2 b n)).toInt ∧ (uid (ix2 b n)).toInt < 1024
  inj_m : ∀ (b : Fin 128) (n n' : Fin 768), mid (ix2 b n) = mid (ix2 b n') → n = n'
  inj_u : ∀ (b : Fin 128) (n n' : Fin 256), uid (ix2 b n) = uid (ix2 b n') → n = n'
  disj : ∀ (b : Fin 128) (n : Fin 768) (n' : Fin 256), mid (ix2 b n) ≠ uid (ix2 b n')

end Cert.Spec

end
-- ==== Proof.SpecFacts.lean ====
import proofs.«422696_j35751307772079_3_alg».proof.Proof.Spec

/-! # Facts about the specification: finiteness of a normalised row, and the sample's value when the
positions are pairwise distinct -/

noncomputable section

namespace Cert.Spec

open Idealize.ShloMosaic
open scoped BigOperators

/-- The row-length word denotes the real 512. -/
theorem c512_eq : c512 = ((512 : ℝ) : EReal) := by
  simp [c512, Ideal.ofBits, Ideal.ieee]
  rw [← EReal.coe_mul]
  norm_num

/-- The epsilon word denotes a positive real. -/
theorem eps_pos : ∃ r : ℝ, 0 < r ∧ eps = (r : EReal) := by
  refine ⟨10995116 * (2 ^ 40)⁻¹, by positivity, ?_⟩
  simp [eps, Ideal.ofBits, Ideal.ieee]

/-- A finite sum of reals, taken in the extended reals, is the real sum. -/
theorem coe_sum {ι : Type} (s : Finset ι) (r : ι → ℝ) :
    ∑ k ∈ s, ((r k : ℝ) : EReal) = ((∑ k ∈ s, r k : ℝ) : EReal) := by
  classical
  induction s using Finset.induction_on with
  | empty => simp
  | insert a s ha ih => rw [Finset.sum_insert ha, Finset.sum_insert ha, ih, EReal.coe_add]

/-- A real divided by a nonzero real is the real quotient. -/
theorem div_real (a b : ℝ) (hb : b ≠ 0) :
    Ideal.div (a : EReal) (b : EReal) = ((a * b⁻¹ : ℝ) : EReal) := by
  unfold Ideal.div
  rw [if_neg (by exact_mod_cast hb), EReal.coe_mul, EReal.coe_inv]

/-- The reciprocal square root of a positive real is a real. -/
theorem rsqrt_real (r : ℝ) (hr : 0 < r) :
    Ideal.rsqrt (r : EReal) = (((Real.sqrt r)⁻¹ : ℝ) : EReal) := by
  show (if r < 0 then ⊥ else if r = 0 then ⊤ else (((Real.sqrt r)⁻¹ : ℝ) : EReal)) = _
  rw [if_neg (not_lt.mpr hr.le), if_neg hr.ne']

/-- The mean of a row of reals is the real mean. -/
theorem rowMean_real (r : Fin 512 → ℝ) :
    rowMean (fun k => (r k : EReal)) = (((∑ k, r k) * (512 : ℝ)⁻¹ : ℝ) : EReal) := by
  unfold rowMean
  rw [coe_sum, c512_eq, div_real _ _ (by norm_num)]

/-- A layer-normalised row of real entries, with real scale and shift, has real entries: the variance is
    a mean of squares, so `var + eps` is positive and its reciprocal square root is a real. -/
theorem lnRow_real (x g be : Fin 512 → EReal) (hx : ∀ k, ∃ r : ℝ, x k = (r : EReal)) (hg : ∀ k, ∃ r : ℝ, g k = (r : EReal))
    (hb : ∀ k, ∃ r : ℝ, be k = (r : EReal)) (k : Fin 512) : ∃ r : ℝ, lnRow x g be k = (r : EReal) := by
  choose xr hxr using hx
  choose gr hgr using hg
  choose br hbr using hb
  obtain ⟨e, he, hee⟩ := eps_pos
  have hx' : x = fun k => (xr k : EReal) := funext hxr
  subst hx'
  have hc : ∀ j, centred (fun k => (xr k : EReal)) j
      = ((xr j - (∑ k, xr k) * (512 : ℝ)⁻¹ : ℝ) : EReal) := by
    intro j
    unfold centred
    rw [rowMean_real, EReal.coe_sub]
  have hv : rowMean (fun j => centred (fun k => (xr k : EReal)) j * centred (fun k => (xr k : EReal)) j)
      = (((∑ j, (xr j - (∑ k, xr k) * (512 : ℝ)⁻¹) * (xr j - (∑ k, xr k) * (512 : ℝ)⁻¹)) * (512 : ℝ)⁻¹ : ℝ) : EReal) := by
    rw [← rowMean_real]
    congr 1
    funext j
    rw [hc, EReal.coe_mul]
  have hpos : 0 < (∑ j, (xr j - (∑ k, xr k) * (512 : ℝ)⁻¹) * (xr j - (∑ k, xr k) * (512 : ℝ)⁻¹)) * (512 : ℝ)⁻¹ + e := by
    have h0 : 0 ≤ ∑ j, (xr j - (∑ k, xr k) * (512 : ℝ)⁻¹) * (xr j - (∑ k, xr k) * (512 : ℝ)⁻¹) :=
      Finset.sum_nonneg (fun j _ => mul_self_nonneg _)
    positivity
  refine ⟨(xr k - (∑ k, xr k) * (512 : ℝ)⁻¹)
    * (Real.sqrt ((∑ j, (xr j - (∑ k, xr k) * (512 : ℝ)⁻¹) * (xr j - (∑ k, xr k) * (512 : ℝ)⁻¹)) * (512 : ℝ)⁻¹ + e))⁻¹
    * gr k + br k, ?_⟩
  unfold lnRow
  rw [hv, hee, ← EReal.coe_add, rsqrt_real _ hpos, hc, hgr, hbr, ← EReal.coe_mul, ← EReal.coe_mul, ← EReal.coe_add]

/-- Position `t` holds the visible row `n0` sent there, when visible positions are distinct and meet no masked one. -/
theorem sample_of_unmask_hit (e p : Fin 256 → Fin 512 → EReal) (me : Fin 768 → Fin 512 → EReal) (g be : Fin 512 → EReal)
    (mid : Fin 768 → BitVec 32) (uid : Fin 256 → BitVec 32) (t : Fin 1024) (k : Fin 512) (n0 : Fin 256)
    (h : uid n0 = BitVec.ofNat 32 t.val) (hu : ∀ n n' : Fin 256, uid n = uid n' → n = n')
    (hmu : ∀ (n : Fin 768) (n' : Fin 256), mid n ≠ uid n') :
    sample e p me g be mid uid t k = lnRow (fun j => e n0 j + p n0 j) g be k := by
  unfold sample
  have h1 : (∑ n : Fin 768, if BitVec.ofNat 32 t.val = mid n then me n k else 0) = 0 := by
    apply Finset.sum_eq_zero
    intro n _
    rw [if_neg]
    intro hh
    exact hmu n n0 (hh.symm.trans h.symm)
  have h2 : (∑ n : Fin 256, if BitVec.ofNat 32 t.val = uid n then lnRow (fun j => e n j + p n j) g be k else 0)
      = lnRow (fun j => e n0 j + p n0 j) g be k := by
    rw [Finset.sum_eq_single n0]
    · rw [if_pos h.symm]
    · intro n _ hn
      rw [if_neg]
      intro hh
      exact hn (hu n n0 (hh.symm.trans h.symm))
    · intro hh
      exact absurd (Finset.mem_univ _) hh
  rw [h1, h2, zero_add]

/-- Position `t` holds the masked row `n0` sent there, when masked positions are distinct and meet no visible one. -/
theorem sample_of_mask_hit (e p : Fin 256 → Fin 512 → EReal) (me : Fin 768 → Fin 512 → EReal) (g be : Fin 512 → EReal)
    (mid : Fin 768 → BitVec 32) (uid : Fin 256 → BitVec 32) (t : Fin 1024) (k : Fin 512) (n0 : Fin 768)
    (h : mid n0 = BitVec.ofNat 32 t.val) (hm : ∀ n n' : Fin 768, mid n = mid n' → n = n')
    (hmu : ∀ (n : Fin 768) (n' : Fin 256), mid n ≠ uid n') :
    sample e p me g be mid uid t k = me n0 k := by
  unfold sample
  have h1 : (∑ n : Fin 768, if BitVec.ofNat 32 t.val = mid n then me n k else 0) = me n0 k := by
    rw [Finset.sum_eq_single n0]
    · rw [if_pos h.symm]
    · intro n _ hn
      rw [if_neg]
      intro hh
      exact hn (hm n n0 (hh.symm.trans h.symm))
    · intro hh
      exact absurd (Finset.mem_univ _) hh
  have h2 : (∑ n : Fin 256, if BitVec.ofNat 32 t.val = uid n then lnRow (fun j => e n j + p n j) g be k else 0) = 0 := by
    apply Finset.sum_eq_zero
    intro n _
    rw [if_neg]
    intro hh
    exact hmu n0 n (h.trans hh)
  rw [h1, h2, add_zero]

/-- A position no row is sent to holds zero. -/
theorem sample_of_no_hit (e p : Fin 256 → Fin 512 → EReal) (me : Fin 768 → Fin 512 → EReal) (g be : Fin 512 → EReal)
    (mid : Fin 768 → BitVec 32) (uid : Fin 256 → BitVec 32) (t : Fin 1024) (k : Fin 512)
    (hm : ∀ n : Fin 768, mid n ≠ BitVec.ofNat 32 t.val) (hu : ∀ n : Fin 256, uid n ≠ BitVec.ofNat 32 t.val) :
    sample e p me g be mid uid t k = 0 := by
  unfold sample
  have h1 : (∑ n : Fin 768, if BitVec.ofNat 32 t.val = mid n then me n k else 0) = 0 := by
    apply Finset.sum_eq_zero
    intro n _
    rw [if_neg]
    intro hh
    exact hm n hh.symm
  have h2 : (∑ n : Fin 256, if BitVec.ofNat 32 t.val = uid n then lnRow (fun j => e n j + p n j) g be k else 0) = 0 := by
    apply Finset.sum_eq_zero
    intro n _
    rw [if_neg]
    intro hh
    exact hu n hh.symm
  rw [h1, h2, add_zero]

end Cert.Spec

end
-- ==== Proof.KernelLN.lean ====
import proofs.«422696_j35751307772079_3_alg».proof.Proof.Gen.KernelIdeal.Skeleton
import proofs.«422696_j35751307772079_3_alg».proof.Proof.Spec
import Idealize.ShloMosaic.PureOps.Ideal.Laws
import Idealize.ShloMosaic.Lib.Pipeline.Value
import Idealize.ShloMosaic.Lib.ValueIdx
import Idealize.ShloMosaic.Lib.ValueLayout

/-! # The kernel's normalised block, row by row -/

noncomputable section

namespace Cert.KernelIdeal.LN

open Cert.KernelIdeal Cert.KernelIdeal.Gen Idealize.ShloMosaic Idealize.ShloMosaic.ValueIdx
open scoped BigOperators

/-! ## The layout steps of a reduction along the last axis that keeps its axis

The sum over the last axis of an `[a, b, c]` block is an `[a, b]` array; it is cast to the column block `[a, b, 1]`
and that is broadcast back over `[a, b, c]`. A `[c]` vector is cast to `[1, 1, c]` and broadcast over `[a, b, c]`.
Each step read at an index given by its coordinates. -/

section Layout
variable {α : Type}

/-- An `[a, b]` array cast to `[a, b, 1]` reads, at `(i, j, u)`, the array at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` block broadcast over `[a, b, c]` reads, at `(i, j, k)`, the block's entry of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[c]` vector cast to `[1, 1, c]` reads, at `(u, w, k)`, the vector at `k`. -/
theorem shapeCast_c_11c_apply {c : ℕ} (x : (⟨1, ![c]⟩ : Shape).Idx → α)
    (h : (⟨1, ![c]⟩ : Shape).ShapeCasts ⟨3, ![1, 1, c]⟩) (u w : Fin 1) (k : Fin c) :
    shapeCast ⟨3, ![1, 1, c]⟩ x h (ix3 u w k) = x (ix1 k) :=
  shapeCast_apply x h _ _ (by
    have hu : u.val = 0 := by omega
    have hw : w.val = 0 := by omega
    rw [Shape.rowMajor_val_one, Shape.rowMajor_val_three]
    show k.val = (u.val * 1 + w.val) * c + k.val
    simp only [hu, hw, Nat.zero_mul, Nat.zero_add])

/-- A `[1, 1, c]` block broadcast over `[a, b, c]` reads, at `(i, j, k)`, the block's one row at `k`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Layout

/-! ## The sum along the last axis -/

/-- Reducing `[a, b, c]` along axis 2: over row `(i, j)`, coordinate `k` put back is `(i, j, k)`. -/
theorem lift_axis2 {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d
  match d with
  | ⟨0, _⟩ => exact Fin.ext rfl
  | ⟨1, _⟩ => exact Fin.ext rfl
  | ⟨2, _⟩ => exact Fin.ext rfl

/-- The vector unit's sum of an `[a, b, c]` block along its last axis is, at `(i, j)`, the sum of row `(i, j)`. -/
theorem sumAxis2_apply {φ : FTy} {a b c : ℕ} (v : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.add.neutral φ hφ) (i : Fin a) (j : Fin b) :
    multiReduction .add [2] ⟨2, ![a, b]⟩ v acc h hφ hacc (ix2 i j) = ∑ k : Fin c, v (ix3 i j k) :=
  (Ideal.multiReduction_add_single v acc h hφ hacc (ix2 i j)).trans
    (Finset.sum_congr rfl fun k _ => congrArg v (lift_axis2 h i j k))

/-! ## The mean, the centred row and the variance of a block's rows -/

/-- The row sums of a block divided by the word of 512, as a column block: at `(p, n, u)` the mean of row `(p, n)`. -/
theorem meanCol_apply (v : FVec Ideal S2x256x512 .f32) (hred : S2x256x512.Reduces [2] S2x256) (hφ : FKind.Formats .f32)
    (hacc : (0x00000000#32 : BitVec 32) = FKind.add.neutral .f32 hφ) (hsc : S2x256.ShapeCasts S2x256x1)
    (p : Fin 2) (n : Fin 256) (u : Fin 1) :
    divf (shapeCast S2x256x1 (multiReduction .add [2] S2x256 v 0x00000000#32 hred hφ hacc) hsc)
        (broadcast S2x256x1 (Scalar.ofBits (F := Ideal) .f32 0x44000000#32)) (ix3 p n u)
      = Cert.Spec.rowMean (fun j => v (ix3 p n j)) :=
  congrArg (fun z => Ideal.div z Cert.Spec.c512)
    ((shapeCast_ab_ab1_apply _ hsc p n u).trans (sumAxis2_apply v _ hred hφ hacc p n))

/-- A block minus its row means broadcast back over it: at `(p, n, k)` the centred row `(p, n)` at `k`. -/
theorem centred_apply (v : FVec Ideal S2x256x512 .f32) (hred : S2x256x512.Reduces [2] S2x256) (hφ : FKind.Formats .f32)
    (hacc : (0x00000000#32 : BitVec 32) = FKind.add.neutral .f32 hφ) (hsc : S2x256.ShapeCasts S2x256x1)
    (hbc : S2x256x1.Broadcasts S2x256x512) (p : Fin 2) (n : Fin 256) (k : Fin 512) :
    subf v (broadcastTo S2x256x512
        (divf (shapeCast S2x256x1 (multiReduction .add [2] S2x256 v 0x00000000#32 hred hφ hacc) hsc)
          (broadcast S2x256x1 (Scalar.ofBits (F := Ideal) .f32 0x44000000#32))) hbc) (ix3 p n k)
      = Cert.Spec.centred (fun j => v (ix3 p n j)) k :=
  congrArg (fun z => v (ix3 p n k) - z)
    ((broadcastTo_ab1_abc_apply _ hbc p n k).trans (meanCol_apply v hred hφ hacc hsc p n 0))

/-- Entry `(p, n, k)` of the kernel's normalised block is the layer normalisation of row `(p, n)` of the sum of
    its two loaded blocks, with the loaded scale and shift. -/
theorem pay2_apply (x0 x1 : Vec Ideal S2x256x512 .f32) (x3 x4 : Vec Ideal S512 .f32) (p : Fin 2) (n : Fin 256) (k : Fin 512) :
    k0_pay2 (F := Ideal) x0 x1 x3 x4 (ix3 p n k)
      = Cert.Spec.lnRow (fun j => x0 (ix3 p n j) + x1 (ix3 p n j)) (fun j => x3 (ix1 j)) (fun j => x4 (ix1 j)) k := by
  unfold k0_pay2 Cert.Spec.lnRow
  -- the outer sum: the scaled normalised row plus the shift
  refine (addf_apply _ _ _).trans (congrArg₂ (· + ·) ?_ ?_)
  · -- times the scale
    refine (mulf_apply _ _ _).trans (congrArg₂ (· * ·) ?_ ?_)
    · -- the centred row times the inverse root of the variance plus epsilon
      refine (mulf_apply _ _ _).trans (congrArg₂ (· * ·) ?_ ?_)
      · exact centred_apply (addf x0 x1) _ _ _ _ _ p n k
      · refine (broadcastTo_ab1_abc_apply _ _ p n k).trans ?_
        refine congrArg (fun z => Ideal.rsqrt (z + Cert.Spec.eps)) ?_
        refine (meanCol_apply _ _ _ _ _ p n 0).trans ?_
        refine congrArg Cert.Spec.rowMean (funext fun j => ?_)
        exact (mulf_apply _ _ _).trans
          (congrArg₂ (· * ·) (centred_apply (addf x0 x1) _ _ _ _ _ p n j) (centred_apply (addf x0 x1) _ _ _ _ _ p n j))
    · exact (broadcastTo_11c_abc_apply _ _ p n k).trans (shapeCast_c_11c_apply _ _ 0 0 k)
  · exact (broadcastTo_11c_abc_apply _ _ p n k).trans (shapeCast_c_11c_apply _ _ 0 0 k)

end Cert.KernelIdeal.LN

end
-- ==== Proof.KernelPay.lean ====
import proofs.«422696_j35751307772079_3_alg».proof.Proof.Gen.KernelIdeal.Skeleton
import proofs.«422696_j35751307772079_3_alg».proof.Proof.Spec
import proofs.«422696_j35751307772079_3_alg».proof.Proof.SpecFacts
import proofs.«422696_j35751307772079_3_alg».proof.Proof.KernelLN
import Idealize.ShloMosaic.PureOps.Ideal.Laws
import Idealize.ShloMosaic.Lib.Pipeline.Value
import Idealize.ShloMosaic.Lib.ValueIdx
import Idealize.ShloMosaic.Lib.ValueLayout

/-! # The kernel's stored block at an index -/

noncomputable section

namespace Cert.KernelIdeal.Pay

open Cert.KernelIdeal Cert.KernelIdeal.Gen Idealize.ShloMosaic Idealize.ShloMosaic.ValueIdx
open scoped BigOperators

/-! ## The product's operand indices, coordinate by coordinate -/

theorem lhs_0 (j : S2x1024x512.Idx) (k : dot_S2x1024x1024_S2x1024x512_S2x1024x512_2_1_1_2_0_0.contr.Idx) :
    (dot_S2x1024x1024_S2x1024x512_S2x1024x512_2_1_1_2_0_0.lhsIdx j k 0 : ℕ) = j 0 := by
  simp [DotDims.lhsIdx, dot_S2x1024x1024_S2x1024x512_S2x1024x512_2_1_1_2_0_0]; rfl
theorem lhs_1 (j : S2x1024x512.Idx) (k : dot_S2x1024x1024_S2x1024x512_S2x1024x512_2_1_1_2_0_0.contr.Idx) :
    (dot_S2x1024x1024_S2x1024x512_S2x1024x512_2_1_1_2_0_0.lhsIdx j k 1 : ℕ) = j 1 := by
  simp [DotDims.lhsIdx, dot_S2x1024x1024_S2x1024x512_S2x1024x512_2_1_1_2_0_0]; rfl
theorem lhs_2 (j : S2x1024x512.Idx) (k : dot_S2x1024x1024_S2x1024x512_S2x1024x512_2_1_1_2_0_0.contr.Idx) :
    (dot_S2x1024x1024_S2x1024x512_S2x1024x512_2_1_1_2_0_0.lhsIdx j k 2 : ℕ) = k ⟨0, by decide⟩ := by
  simp [DotDims.lhsIdx, dot_S2x1024x1024_S2x1024x512_S2x1024x512_2_1_1_2_0_0]; rfl
theorem rhs_0 (j : S2x1024x512.Idx) (k : dot_S2x1024x1024_S2x1024x512_S2x1024x512_2_1_1_2_0_0.contr.Idx) :
    (dot_S2x1024x1024_S2x1024x512_S2x1024x512_2_1_1_2_0_0.rhsIdx j k 0 : ℕ) = j 0 := by
  simp [DotDims.rhsIdx, dot_S2x1024x1024_S2x1024x512_S2x1024x512_2_1_1_2_0_0]; rfl
theorem rhs_1 (j : S2x1024x512.Idx) (k : dot_S2x1024x1024_S2x1024x512_S2x1024x512_2_1_1_2_0_0.contr.Idx) :
    (dot_S2x1024x1024_S2x1024x512_S2x1024x512_2_1_1_2_0_0.rhsIdx j k 1 : ℕ) = k ⟨0, by decide⟩ := by
  simp [DotDims.rhsIdx, dot_S2x1024x1024_S2x1024x512_S2x1024x512_2_1_1_2_0_0]; rfl
theorem rhs_2 (j : S2x1024x512.Idx) (k : dot_S2x1024x1024_S2x1024x512_S2x1024x512_2_1_1_2_0_0.contr.Idx) :
    (dot_S2x1024x1024_S2x1024x512_S2x1024x512_2_1_1_2_0_0.rhsIdx j k 2 : ℕ) = j 2 := by
  simp [DotDims.rhsIdx, dot_S2x1024x1024_S2x1024x512_S2x1024x512_2_1_1_2_0_0]; rfl

/-- The batched product into the zero splat, at `(p, r, q)`: the sum over the contracted coordinate. -/
theorem matmul_at (A : FVec Ideal S2x1024x1024 .bf16) (B : FVec Ideal S2x1024x512 .bf16) (p : Fin 2) (r : Fin 1024) (q : Fin 512) :
    matmul dot_S2x1024x1024_S2x1024x512_S2x1024x512_2_1_1_2_0_0 none A B (constant (F := Ideal) S2x1024x512 .f32 0x00000000#32) (ix3 p r q)
      = ∑ k : Fin 1024, A (ix3 p r k) * B (ix3 p k q) := by
  refine (Ideal.matmul_constant_zero_apply dot_S2x1024x1024_S2x1024x512_S2x1024x512_2_1_1_2_0_0 none A B (ix3 p r q)).trans ?_
  rw [← Equiv.sum_comp (contrEquiv1 dot_S2x1024x1024_S2x1024x512_S2x1024x512_2_1_1_2_0_0 1024 rfl rfl).symm]
  refine Finset.sum_congr rfl fun k _ => ?_
  have hl : dot_S2x1024x1024_S2x1024x512_S2x1024x512_2_1_1_2_0_0.lhsIdx (ix3 p r q)
      ((contrEquiv1 dot_S2x1024x1024_S2x1024x512_S2x1024x512_2_1_1_2_0_0 1024 rfl rfl).symm k) = ix3 p r k := by
    funext a; apply Fin.ext
    match a with
    | ⟨0, _⟩ => exact lhs_0 _ _
    | ⟨1, _⟩ => exact lhs_1 _ _
    | ⟨2, _⟩ => exact (lhs_2 _ _).trans (contrEquiv1_symm_val dot_S2x1024x1024_S2x1024x512_S2x1024x512_2_1_1_2_0_0 1024 rfl rfl k)
  have hr : dot_S2x1024x1024_S2x1024x512_S2x1024x512_2_1_1_2_0_0.rhsIdx (ix3 p r q)
      ((contrEquiv1 dot_S2x1024x1024_S2x1024x512_S2x1024x512_2_1_1_2_0_0 1024 rfl rfl).symm k) = ix3 p k q := by
    funext a; apply Fin.ext
    match a with
    | ⟨0, _⟩ => exact rhs_0 _ _
    | ⟨1, _⟩ => exact (rhs_1 _ _).trans (contrEquiv1_symm_val dot_S2x1024x1024_S2x1024x512_S2x1024x512_2_1_1_2_0_0 1024 rfl rfl k)
    | ⟨2, _⟩ => exact rhs_2 _ _
  rw [hl, hr]

/-! ## The one-hot matrices at an index -/

/-- A comparison bit, widened and converted, is the real `1` or `0`. -/
theorem onehot_word (a b : BitVec 32) :
    FloatOps.sitofp (F := Ideal) .f32 ((IntOp.cmpi .eq a b).setWidth 32) = if a = b then (1 : EReal) else 0 := by
  by_cases h : a = b
  · subst h
    rw [if_pos rfl]
    show (((((IntOp.cmpi .eq a a).setWidth 32).toInt : ℤ) : ℝ) : EReal) = 1
    have e : ((IntOp.cmpi .eq a a).setWidth 32).toInt = 1 := by
      simp [IntOp.cmpi]
    rw [e]; simp
  · rw [if_neg h]
    show (((((IntOp.cmpi .eq a b).setWidth 32).toInt : ℤ) : ℝ) : EReal) = 0
    have hb : (a == b) = false := by simpa using h
    have e : ((IntOp.cmpi .eq a b).setWidth 32).toInt = 0 := by
      simp [IntOp.cmpi, hb]
    rw [e]; simp

/-- The masked positions' one-hot matrix at `(p, r, n)`. -/
theorem pay4_apply (x5 : Vec Ideal S2x1x768 .i32) (p : Fin 2) (r : Fin 1024) (n : Fin 768) :
    k0_pay4 (F := Ideal) x5 (ix3 p r n) = if BitVec.ofNat 32 r.val = x5 (ix3 p 0 n) then (1 : EReal) else 0 := by
  unfold k0_pay4
  refine Eq.trans ?_ (onehot_word (BitVec.ofNat 32 r.val) (x5 (ix3 p 0 n)))
  show FloatOps.sitofp (F := Ideal) .f32 ((IntOp.cmpi .eq
      (broadcastTo S2x1024x768 (iota .tc S1x1024x1 32 [1] iota_S1x1024x1_d1_w32) broadcasts_S1x1024x1_S2x1024x768 (ix3 p r n))
      (broadcastTo S2x1024x768 (shapeCast S2x1x768 x5 shapeCasts_S2x1x768_S2x1x768) broadcasts_S2x1x768_S2x1024x768 (ix3 p r n))).setWidth 32) = _
  have e1 : broadcastTo S2x1024x768 (iota .tc S1x1024x1 32 [1] iota_S1x1024x1_d1_w32) broadcasts_S1x1024x1_S2x1024x768 (ix3 p r n)
      = BitVec.ofNat 32 r.val := by
    refine (broadcastTo_apply _ _ (ix3 p r n) (ix3 (0 : Fin 1) r (0 : Fin 1)) ?_).trans ?_
    · intro a
      match a with
      | ⟨0, _⟩ => rfl
      | ⟨1, _⟩ => rfl
      | ⟨2, _⟩ => rfl
    · exact iota_single_apply .tc S1x1024x1 32 1 iota_S1x1024x1_d1_w32 (ix3 (0 : Fin 1) r (0 : Fin 1))
  have e2 : broadcastTo S2x1024x768 (shapeCast S2x1x768 x5 shapeCasts_S2x1x768_S2x1x768) broadcasts_S2x1x768_S2x1024x768 (ix3 p r n)
      = x5 (ix3 p 0 n) := by
    rw [shapeCast_self]
    refine broadcastTo_apply _ _ (ix3 p r n) (ix3 p (0 : Fin 1) n) ?_
    intro a
    match a with
    | ⟨0, _⟩ => rfl
    | ⟨1, _⟩ => rfl
    | ⟨2, _⟩ => rfl
  rw [e1, e2]

/-! ## The two concatenations at an index -/

theorem cat2_left (A : FVec Ideal S2x1024x768 .bf16) (B : FVec Ideal S2x1024x256 .bf16) (p : Fin 2) (r : Fin 1024)
    (n : Fin 768) (k : Fin 1024) (hk : k.val = n.val) :
    concatenate S2x1024x1024 2 [⟨S2x1024x768, A⟩, ⟨S2x1024x256, B⟩] concatenates_S2x1024x768_S2x1024x256_S2x1024x1024_d2 (ix3 p r k)
      = A (ix3 p r n) := by
  refine concatenate_pair_apply_left (t := S2x1024x1024) (s₁ := S2x1024x768) (s₂ := S2x1024x256) 2 A B
    concatenates_S2x1024x768_S2x1024x256_S2x1024x1024_d2 (ix3 p r k) rfl (ix3 p r n) ?_
  intro b
  match b with
  | ⟨0, _⟩ => rfl
  | ⟨1, _⟩ => rfl
  | ⟨2, _⟩ => exact hk.symm

theorem cat2_right (A : FVec Ideal S2x1024x768 .bf16) (B : FVec Ideal S2x1024x256 .bf16) (p : Fin 2) (r : Fin 1024)
    (n : Fin 256) (k : Fin 1024) (hk : k.val = 768 + n.val) :
    concatenate S2x1024x1024 2 [⟨S2x1024x768, A⟩, ⟨S2x1024x256, B⟩] concatenates_S2x1024x768_S2x1024x256_S2x1024x1024_d2 (ix3 p r k)
      = B (ix3 p r n) := by
  refine concatenate_pair_apply_right (t := S2x1024x1024) (s₁ := S2x1024x768) (s₂ := S2x1024x256) 2 A B
    concatenates_S2x1024x768_S2x1024x256_S2x1024x1024_d2 (ix3 p r k) rfl rfl (ix3 p r n) ?_ ?_
  · intro b hb
    match b, hb with
    | ⟨0, _⟩, _ => rfl
    | ⟨1, _⟩, _ => rfl
    | ⟨2, _⟩, hb => exact absurd rfl hb
  · show n.val + 768 = k.val
    omega

theorem cat1_left (A : FVec Ideal S2x768x512 .bf16) (B : FVec Ideal S2x256x512 .bf16) (p : Fin 2) (q : Fin 512)
    (n : Fin 768) (k : Fin 1024) (hk : k.val = n.val) :
    concatenate S2x1024x512 1 [⟨S2x768x512, A⟩, ⟨S2x256x512, B⟩] concatenates_S2x768x512_S2x256x512_S2x1024x512_d1 (ix3 p k q)
      = A (ix3 p n q) := by
  refine concatenate_pair_apply_left (t := S2x1024x512) (s₁ := S2x768x512) (s₂ := S2x256x512) 1 A B
    concatenates_S2x768x512_S2x256x512_S2x1024x512_d1 (ix3 p k q) rfl (ix3 p n q) ?_
  intro b
  match b with
  | ⟨0, _⟩ => rfl
  | ⟨1, _⟩ => exact hk.symm
  | ⟨2, _⟩ => rfl

theorem cat1_right (A : FVec Ideal S2x768x512 .bf16) (B : FVec Ideal S2x256x512 .bf16) (p : Fin 2) (q : Fin 512)
    (n : Fin 256) (k : Fin 1024) (hk : k.val = 768 + n.val) :
    concatenate S2x1024x512 1 [⟨S2x768x512, A⟩, ⟨S2x256x512, B⟩] concatenates_S2x768x512_S2x256x512_S2x1024x512_d1 (ix3 p k q)
      = B (ix3 p n q) := by
  refine concatenate_pair_apply_right (t := S2x1024x512) (s₁ := S2x768x512) (s₂ := S2x256x512) 1 A B
    concatenates_S2x768x512_S2x256x512_S2x1024x512_d1 (ix3 p k q) rfl rfl (ix3 p n q) ?_ ?_
  · intro b hb
    match b, hb with
    | ⟨0, _⟩, _ => rfl
    | ⟨1, _⟩, hb => exact absurd rfl hb
    | ⟨2, _⟩, _ => rfl
  · show n.val + 768 = k.val
    omega

/-- A sum over the 1024 positions is the sum over the first 768 plus the sum over the last 256. -/
theorem sum_split (f : Fin 1024 → EReal) :
    ∑ k : Fin 1024, f k = (∑ n : Fin 768, f ⟨n.val, by omega⟩) + ∑ n : Fin 256, f ⟨768 + n.val, by omega⟩ :=
  Fin.sum_univ_add (a := 768) (b := 256) f

/-- The visible positions' one-hot matrix at `(p, r, n)`. -/
theorem vis_apply (x6 : Vec Ideal S2x1x256 .i32) (p : Fin 2) (r : Fin 1024) (n : Fin 256) :
    (truncf .bf16 (sitofp (F := Ideal) .f32 (extui 32 (cmpi .eq
        (broadcastTo S2x1024x256 (iota .tc S1x1024x1 32 [1] iota_S1x1024x1_d1_w32) broadcasts_S1x1024x1_S2x1024x256)
        (broadcastTo S2x1024x256 (k0_pay3 (F := Ideal) x6) broadcasts_S2x1x256_S2x1024x256)) natLt_1_32)) bitsLt_bf16_f32
      : FVec Ideal S2x1024x256 .bf16) (ix3 p r n)
      = if BitVec.ofNat 32 r.val = x6 (ix3 p 0 n) then (1 : EReal) else 0 := by
  unfold k0_pay3
  refine Eq.trans ?_ (onehot_word (BitVec.ofNat 32 r.val) (x6 (ix3 p 0 n)))
  show FloatOps.sitofp (F := Ideal) .f32 ((IntOp.cmpi .eq
      (broadcastTo S2x1024x256 (iota .tc S1x1024x1 32 [1] iota_S1x1024x1_d1_w32) broadcasts_S1x1024x1_S2x1024x256 (ix3 p r n))
      (broadcastTo S2x1024x256 (shapeCast S2x1x256 x6 shapeCasts_S2x1x256_S2x1x256) broadcasts_S2x1x256_S2x1024x256 (ix3 p r n))).setWidth 32) = _
  have e1 : broadcastTo S2x1024x256 (iota .tc S1x1024x1 32 [1] iota_S1x1024x1_d1_w32) broadcasts_S1x1024x1_S2x1024x256 (ix3 p r n)
      = BitVec.ofNat 32 r.val := by
    refine (broadcastTo_apply _ _ (ix3 p r n) (ix3 (0 : Fin 1) r (0 : Fin 1)) ?_).trans ?_
    · intro a
      match a with
      | ⟨0, _⟩ => rfl
      | ⟨1, _⟩ => rfl
      | ⟨2, _⟩ => rfl
    · exact iota_single_apply .tc S1x1024x1 32 1 iota_S1x1024x1_d1_w32 (ix3 (0 : Fin 1) r (0 : Fin 1))
  have e2 : broadcastTo S2x1024x256 (shapeCast S2x1x256 x6 shapeCasts_S2x1x256_S2x1x256) broadcasts_S2x1x256_S2x1024x256 (ix3 p r n)
      = x6 (ix3 p 0 n) := by
    rw [shapeCast_self]
    refine broadcastTo_apply _ _ (ix3 p r n) (ix3 p (0 : Fin 1) n) ?_
    intro a
    match a with
    | ⟨0, _⟩ => rfl
    | ⟨1, _⟩ => rfl
    | ⟨2, _⟩ => rfl
  rw [e1, e2]

/-- A real number minus itself is zero. -/
theorem real_sub_self (a : EReal) (h : ∃ r : ℝ, a = (r : EReal)) : a - a = 0 := by
  obtain ⟨r, rfl⟩ := h
  rw [← EReal.coe_sub, sub_self, EReal.coe_zero]

/-- A one-hot entry times a value is the value or zero. -/
theorem ite_one_mul (c : Prop) [Decidable c] (v : EReal) : (if c then (1 : EReal) else 0) * v = if c then v else 0 := by
  split_ifs
  · exact one_mul v
  · exact zero_mul v

/-- The two one-hot matrix products, at `(p, r, q)`: the rows of the masked block and of a block `v28` of real
    entries whose position word is `r`, summed. The low halves `v - v` vanish because the entries are real. -/
theorem pay1_core (v28 : FVec Ideal S2x256x512 .f32) (hv : Cert.Spec.AllReal v28) (x2 : Vec Ideal S2x768x512 .f32)
    (h2 : Cert.Spec.AllReal x2) (x5 : Vec Ideal S2x1x768 .i32) (x6 : Vec Ideal S2x1x256 .i32)
    (p : Fin 2) (r : Fin 1024) (q : Fin 512) :
    k0_pay1 (F := Ideal) v28 (k0_pay3 (F := Ideal) x6) (iota .tc S1x1024x1 32 [1] iota_S1x1024x1_d1_w32) (k0_pay4 (F := Ideal) x5) x2 (ix3 p r q)
      = (∑ n : Fin 768, if BitVec.ofNat 32 r.val = x5 (ix3 p 0 n) then x2 (ix3 p n q) else 0)
        + ∑ n : Fin 256, if BitVec.ofNat 32 r.val = x6 (ix3 p 0 n) then v28 (ix3 p n q) else 0 := by
  unfold k0_pay1
  refine (addf_apply _ _ _).trans ?_
  refine Eq.trans (congrArg₂ (· + ·) ((matmul_at _ _ p r q).trans ?_) ((matmul_at _ _ p r q).trans ?_)) (add_zero _)
  · -- the high halves: the one-hot rows pick the rows whose position word is `r`
    refine (sum_split _).trans (congrArg₂ (· + ·) (Finset.sum_congr rfl fun n _ => ?_) (Finset.sum_congr rfl fun n _ => ?_))
    · refine Eq.trans (congrArg₂ (· * ·) (cat2_left _ _ p r n _ rfl) (cat1_left _ _ p q n _ rfl)) ?_
      refine Eq.trans (congrArg (· * x2 (ix3 p n q)) (pay4_apply x5 p r n)) ?_
      exact ite_one_mul _ _
    · refine Eq.trans (congrArg₂ (· * ·) (cat2_right _ _ p r n _ rfl) (cat1_right _ _ p q n _ rfl)) ?_
      refine Eq.trans (congrArg (· * v28 (ix3 p n q)) (vis_apply x6 p r n)) ?_
      exact ite_one_mul _ _
  · -- the low halves: every entry is a real number minus itself
    refine Finset.sum_eq_zero fun k _ => ?_
    have hz : concatenate S2x1024x512 1
        [⟨S2x768x512, truncf .bf16 (subf x2 x2) bitsLt_bf16_f32⟩, ⟨S2x256x512, truncf .bf16 (subf v28 v28) bitsLt_bf16_f32⟩]
        concatenates_S2x768x512_S2x256x512_S2x1024x512_d1 (ix3 p k q) = (0 : EReal) := by
      by_cases hk : k.val < 768
      · refine (cat1_left _ _ p q ⟨k.val, hk⟩ k rfl).trans ?_
        exact real_sub_self _ (h2 _)
      · refine (cat1_right _ _ p q ⟨k.val - 768, by omega⟩ k (by show k.val = 768 + (k.val - 768); omega)).trans ?_
        exact real_sub_self _ (hv _)
    exact (congrArg (_ * ·) hz).trans (mul_zero _)

/-- The stored block at `(p, r, q)` is sample `p` of the loaded blocks at position `r`, feature `q`. -/
theorem pay1_apply (x0 x1 : Vec Ideal S2x256x512 .f32) (x2 : Vec Ideal S2x768x512 .f32) (x3 x4 : Vec Ideal S512 .f32)
    (x5 : Vec Ideal S2x1x768 .i32) (x6 : Vec Ideal S2x1x256 .i32)
    (h0 : Cert.Spec.AllReal x0) (h1 : Cert.Spec.AllReal x1) (h2 : Cert.Spec.AllReal x2) (h3 : Cert.Spec.AllReal x3) (h4 : Cert.Spec.AllReal x4)
    (p : Fin 2) (r : Fin 1024) (q : Fin 512) :
    k0_pay1 (F := Ideal) (k0_pay2 (F := Ideal) x0 x1 x3 x4) (k0_pay3 (F := Ideal) x6) (iota .tc S1x1024x1 32 [1] iota_S1x1024x1_d1_w32) (k0_pay4 (F := Ideal) x5) x2 (ix3 p r q)
      = Cert.Spec.sample (fun n j => x0 (ix3 p n j)) (fun n j => x1 (ix3 p n j)) (fun n j => x2 (ix3 p n j))
          (fun j => x3 (ix1 j)) (fun j => x4 (ix1 j)) (fun n => x5 (ix3 p 0 n)) (fun n => x6 (ix3 p 0 n)) r q := by
  -- the normalised block has real entries
  have hv : Cert.Spec.AllReal (k0_pay2 (F := Ideal) x0 x1 x3 x4) := by
    intro i
    obtain ⟨a, b, c, rfl⟩ : ∃ (a : Fin 2) (b : Fin 256) (c : Fin 512), i = ix3 a b c := ⟨i 0, i 1, i 2, eq_ix3 i⟩
    rw [Cert.KernelIdeal.LN.pay2_apply x0 x1 x3 x4 a b c]
    refine Cert.Spec.lnRow_real _ _ _ (fun k => ?_) (fun k => h3 _) (fun k => h4 _) c
    obtain ⟨u, hu⟩ := h0 (ix3 a b k)
    obtain ⟨w, hw⟩ := h1 (ix3 a b k)
    exact ⟨u + w, by rw [hu, hw, EReal.coe_add]⟩
  refine (pay1_core _ hv x2 h2 x5 x6 p r q).trans ?_
  unfold Cert.Spec.sample
  refine congrArg (_ + ·) (Finset.sum_congr rfl fun n _ => ?_)
  rw [Cert.KernelIdeal.LN.pay2_apply x0 x1 x3 x4 p n q]

end Cert.KernelIdeal.Pay

end
-- ==== Proof.KernelBlocks.lean ====
import proofs.«422696_j35751307772079_3_alg».proof.Proof.Gen.KernelIdeal.Value
import proofs.«422696_j35751307772079_3_alg».proof.Proof.Spec
import proofs.«422696_j35751307772079_3_alg».proof.Proof.KernelPay
import Idealize.ShloMosaic.Lib.Pipeline.Value
import Idealize.ShloMosaic.Lib.StableHlo.Run
import Idealize.ShloMosaic.Lib.Tactic
import Idealize.ShloMosaic.Lib.ValueIdx

/-! # From the kernel's blocks to the whole array

Grid point `t` of 64 handles samples `2t` and `2t + 1`: every window's block at `t` is rows `2t, 2t + 1` of its array
along the first axis (the scale and the shift are one block each). The block the point writes back is therefore rows
`2t, 2t + 1` of the specified array, and the 64 blocks tile it. -/

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Idealize.ShloMosaic.ValueIdx

variable (m : (ℓ : Loc nD τ sig) → Buf (Elt Ideal) ℓ) (ρ : Dev nD → PrngReg)

/-- The argument arrays of core `c`, by their literal types. -/
abbrev enc (c : Dev nD) : S128x256x512.Idx → EReal := m ((c : Thread nD τ).loc main_arg0)
abbrev pos (c : Dev nD) : S128x256x512.Idx → EReal := m ((c : Thread nD τ).loc main_arg1)
abbrev memb (c : Dev nD) : S128x768x512.Idx → EReal := m ((c : Thread nD τ).loc main_arg2)
abbrev gam (c : Dev nD) : S512.Idx → EReal := m ((c : Thread nD τ).loc main_arg3)
abbrev bet (c : Dev nD) : S512.Idx → EReal := m ((c : Thread nD τ).loc main_arg4)
abbrev mid (c : Dev nD) : S128x768.Idx → BitVec 32 := m ((c : Thread nD τ).loc main_arg5)
abbrev uid (c : Dev nD) : S128x256.Idx → BitVec 32 := m ((c : Thread nD τ).loc main_arg6)

/-- The specified result array of core `c`'s arguments. -/
abbrev G (c : Dev nD) : S128x1024x512.Idx → EReal :=
  Cert.Spec.decArr (enc m c) (pos m c) (memb m c) (gam m c) (bet m c) (mid m c) (uid m c)

theorem hz3 : (![0, 0, 0] : Fin 3 → Nat) = fun _ => 0 := funext fun a => by fin_cases a <;> rfl
theorem hz1 : (![0] : Fin 1 → Nat) = fun _ => 0 := funext fun a => by fin_cases a; rfl

theorem hN : cfg0.N = 64 := N_0

/-- Row `2t + p` of an array of 128 samples. -/
def row (t : Fin cfg0.N) (p : Fin 2) : Fin 128 := ⟨2 * t.val + p.val, by have := t.isLt; have := hN; omega⟩

/-- The printed index maps, decided over the 64 points: every sample-blocked window is at block `t` on the first axis
    and at block 0 on the others; the scale and the shift are at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ win0_3.index t (0 : Fin 1) = 0
    ∧ win0_4.index t (0 : Fin 1) = 0
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-- The position arrays as the region finds them: the arguments with a unit axis inserted. -/
theorem V_v0_apply (c : Dev nD) (b : Fin 128) (n : Fin 768) :
    (V m c main_v0 : S128x1x768.Idx → BitVec 32) (ix3 b 0 n) = mid m c (ix2 b n) := by
  have e : (V m c main_v0 : S128x1x768.Idx → BitVec 32) = shapeCast S128x1x768 (mid m c) shapeCasts_S128x768_S128x1x768 := by
    dsimp only [V, hostOps0]; after_results; rfl
  rw [e]
  refine shapeCast_apply _ _ _ _ ?_
  rw [Shape.rowMajor_val_three, Shape.rowMajor_val_two]
  show b.val * 768 + n.val = (b.val * 1 + 0) * 768 + n.val
  omega

theorem V_v1_apply (c : Dev nD) (b : Fin 128) (n : Fin 256) :
    (V m c main_v1 : S128x1x256.Idx → BitVec 32) (ix3 b 0 n) = uid m c (ix2 b n) := by
  have e : (V m c main_v1 : S128x1x256.Idx → BitVec 32) = shapeCast S128x1x256 (uid m c) shapeCasts_S128x256_S128x1x256 := by
    dsimp only [V, hostOps0]; after_results; rfl
  rw [e]
  refine shapeCast_apply _ _ _ _ ?_
  rw [Shape.rowMajor_val_three, Shape.rowMajor_val_two]
  show b.val * 256 + n.val = (b.val * 1 + 0) * 256 + n.val
  omega

/-- Each input block at point `t`, as rows `2t, 2t + 1` of its array. -/
theorem iblk0_apply (c : Dev nD) (t : Fin cfg0.N) (p : Fin 2) (n : Fin 256) (k : Fin 512) :
    (iblk m c 0 t : Vec Ideal S2x256x512 .f32) (ix3 p n k) = enc m c (ix3 (row t p) n k) := by
  obtain ⟨⟨e0, e1, e2⟩, -⟩ := idx_facts t
  unfold iblk
  rw [View.read_apply]
  show V m c main_arg0 _ = _
  rw [V_main_arg0]
  refine congrArg (enc m c) (funext fun a => Fin.ext ?_)
  match a with
  | ⟨0, _⟩ => show win0_0.index t (0 : Fin 3) * 2 + 1 * p.val = 2 * t.val + p.val; rw [e0]; omega
  | ⟨1, _⟩ => show win0_0.index t (1 : Fin 3) * 256 + 1 * n.val = n.val; rw [e1]; omega
  | ⟨2, _⟩ => show win0_0.index t (2 : Fin 3) * 512 + 1 * k.val = k.val; rw [e2]; omega

theorem iblk1_apply (c : Dev nD) (t : Fin cfg0.N) (p : Fin 2) (n : Fin 256) (k : Fin 512) :
    (iblk m c 1 t : Vec Ideal S2x256x512 .f32) (ix3 p n k) = pos m c (ix3 (row t p) n k) := by
  obtain ⟨-, ⟨e0, e1, e2⟩, -⟩ := idx_facts t
  unfold iblk
  rw [View.read_apply]
  show V m c main_arg1 _ = _
  rw [V_main_arg1]
  refine congrArg (pos m c) (funext fun a => Fin.ext ?_)
  match a with
  | ⟨0, _⟩ => show win0_1.index t (0 : Fin 3) * 2 + 1 * p.val = 2 * t.val + p.val; rw [e0]; omega
  | ⟨1, _⟩ => show win0_1.index t (1 : Fin 3) * 256 + 1 * n.val = n.val; rw [e1]; omega
  | ⟨2, _⟩ => show win0_1.index t (2 : Fin 3) * 512 + 1 * k.val = k.val; rw [e2]; omega

theorem iblk2_apply (c : Dev nD) (t : Fin cfg0.N) (p : Fin 2) (n : Fin 768) (k : Fin 512) :
    (iblk m c 2 t : Vec Ideal S2x768x512 .f32) (ix3 p n k) = memb m c (ix3 (row t p) n k) := by
  obtain ⟨-, -, ⟨e0, e1, e2⟩, -⟩ := idx_facts t
  unfold iblk
  rw [View.read_apply]
  show V m c main_arg2 _ = _
  rw [V_main_arg2]
  refine congrArg (memb m c) (funext fun a => Fin.ext ?_)
  match a with
  | ⟨0, _⟩ => show win0_2.index t (0 : Fin 3) * 2 + 1 * p.val = 2 * t.val + p.val; rw [e0]; omega
  | ⟨1, _⟩ => show win0_2.index t (1 : Fin 3) * 768 + 1 * n.val = n.val; rw [e1]; omega
  | ⟨2, _⟩ => show win0_2.index t (2 : Fin 3) * 512 + 1 * k.val = k.val; rw [e2]; omega

theorem iblk3_apply (c : Dev nD) (t : Fin cfg0.N) (k : Fin 512) :
    (iblk m c 3 t : Vec Ideal S512 .f32) (ix1 k) = gam m c (ix1 k) := by
  obtain ⟨-, -, -, e0, -⟩ := idx_facts t
  unfold iblk
  rw [View.read_apply]
  show V m c main_arg3 _ = _
  rw [V_main_arg3]
  refine congrArg (gam m c) (funext fun a => Fin.ext ?_)
  match a with
  | ⟨0, _⟩ => show win0_3.index t (0 : Fin 1) * 512 + 1 * k.val = k.val; rw [e0]; omega

theorem iblk4_apply (c : Dev nD) (t : Fin cfg0.N) (k : Fin 512) :
    (iblk m c 4 t : Vec Ideal S512 .f32) (ix1 k) = bet m c (ix1 k) := by
  obtain ⟨-, -, -, -, e0, -⟩ := idx_facts t
  unfold iblk
  rw [View.read_apply]
  show V m c main_arg4 _ = _
  rw [V_main_arg4]
  refine congrArg (bet m c) (funext fun a => Fin.ext ?_)
  match a with
  | ⟨0, _⟩ => show win0_4.index t (0 : Fin 1) * 512 + 1 * k.val = k.val; rw [e0]; omega

theorem iblk5_apply (c : Dev nD) (t : Fin cfg0.N) (p : Fin 2) (n : Fin 768) :
    (iblk m c 5 t : Vec Ideal S2x1x768 .i32) (ix3 p 0 n) = mid m c (ix2 (row t p) n) := by
  obtain ⟨-, -, -, -, -, ⟨e0, e1, e2⟩, -⟩ := idx_facts t
  rw [← V_v0_apply m c (row t p) n]
  unfold iblk
  rw [View.read_apply]
  show V m c main_v0 _ = _
  refine congrArg (V m c main_v0) (funext fun a => Fin.ext ?_)
  match a with
  | ⟨0, _⟩ => show win0_5.index t (0 : Fin 3) * 2 + 1 * p.val = 2 * t.val + p.val; rw [e0]; omega
  | ⟨1, _⟩ => show win0_5.index t (1 : Fin 3) * 1 + 1 * 0 = 0; rw [e1]
  | ⟨2, _⟩ => show win0_5.index t (2 : Fin 3) * 768 + 1 * n.val = n.val; rw [e2]; omega

theorem iblk6_apply (c : Dev nD) (t : Fin cfg0.N) (p : Fin 2) (n : Fin 256) :
    (iblk m c 6 t : Vec Ideal S2x1x256 .i32) (ix3 p 0 n) = uid m c (ix2 (row t p) n) := by
  obtain ⟨-, -, -, -, -, -, ⟨e0, e1, e2⟩, -⟩ := idx_facts t
  rw [← V_v1_apply m c (row t p) n]
  unfold iblk
  rw [View.read_apply]
  show V m c main_v1 _ = _
  refine congrArg (V m c main_v1) (funext fun a => Fin.ext ?_)
  match a with
  | ⟨0, _⟩ => show win0_6.index t (0 : Fin 3) * 2 + 1 * p.val = 2 * t.val + p.val; rw [e0]; omega
  | ⟨1, _⟩ => show win0_6.index t (1 : Fin 3) * 1 + 1 * 0 = 0; rw [e1]
  | ⟨2, _⟩ => show win0_6.index t (2 : Fin 3) * 256 + 1 * n.val = n.val; rw [e2]; omega

/-- The real-entries hypothesis on core `c`'s five float arguments. -/
def RealArgs (c : Dev nD) : Prop :=
  Cert.Spec.AllReal (enc m c) ∧ Cert.Spec.AllReal (pos m c) ∧ Cert.Spec.AllReal (memb m c)
    ∧ Cert.Spec.AllReal (gam m c) ∧ Cert.Spec.AllReal (bet m c)

/-- WHAT POINT `t` WRITES BACK is rows `2t, 2t + 1` of the specified array. -/
theorem flushed_eq (c : Dev nD) (hr : RealArgs m c) (t : Fin cfg0.N) :
    (dats m 0 c).flushed 7 t = ((cfg0.win 7).blk t).view.read (Elt Ideal) (G m c) := by
  obtain ⟨hr0, hr1, hr2, hr3, hr4⟩ := hr
  obtain ⟨-, -, -, -, -, -, -, ⟨e0, e1, e2⟩⟩ := idx_facts t
  rw [flushed7]
  unfold out0_7
  rw [View.canon_unit_zero hz3]
  simp only [View.ld_unit_zero (S := S2x256x512) hz3, View.ld_unit_zero (S := S2x768x512) hz3, View.ld_unit_zero (S := S512) hz1,
    View.ld_unit_zero (S := S2x1x768) hz3, View.ld_unit_zero (S := S2x1x256) hz3]
  funext j
  obtain ⟨p, r, q, rfl⟩ : ∃ (p : Fin 2) (r : Fin 1024) (q : Fin 512), j = ix3 p r q := ⟨j 0, j 1, j 2, eq_ix3 j⟩
  have hemb : ((cfg0.win 7).blk t).view.emb (ix3 p r q) = ix3 (row t p) r q := funext fun a => Fin.ext (by
    match a with
    | ⟨0, _⟩ => show win0_7.index t (0 : Fin 3) * 2 + 1 * p.val = 2 * t.val + p.val; rw [e0]; omega
    | ⟨1, _⟩ => show win0_7.index t (1 : Fin 3) * 1024 + 1 * r.val = r.val; rw [e1]; omega
    | ⟨2, _⟩ => show win0_7.index t (2 : Fin 3) * 512 + 1 * q.val = q.val; rw [e2]; omega)
  have hA0 : Cert.Spec.AllReal (iblk m c 0 t : Vec Ideal S2x256x512 .f32) := fun (i : S2x256x512.Idx) => by
    obtain ⟨p', n', k', rfl⟩ : ∃ (p' : Fin 2) (n' : Fin 256) (k' : Fin 512), i = ix3 p' n' k' := ⟨i 0, i 1, i 2, eq_ix3 i⟩
    rw [iblk0_apply]; exact hr0 _
  have hA1 : Cert.Spec.AllReal (iblk m c 1 t : Vec Ideal S2x256x512 .f32) := fun (i : S2x256x512.Idx) => by
    obtain ⟨p', n', k', rfl⟩ : ∃ (p' : Fin 2) (n' : Fin 256) (k' : Fin 512), i = ix3 p' n' k' := ⟨i 0, i 1, i 2, eq_ix3 i⟩
    rw [iblk1_apply]; exact hr1 _
  have hA2 : Cert.Spec.AllReal (iblk m c 2 t : Vec Ideal S2x768x512 .f32) := fun (i : S2x768x512.Idx) => by
    obtain ⟨p', n', k', rfl⟩ : ∃ (p' : Fin 2) (n' : Fin 768) (k' : Fin 512), i = ix3 p' n' k' := ⟨i 0, i 1, i 2, eq_ix3 i⟩
    rw [iblk2_apply]; exact hr2 _
  have hA3 : Cert.Spec.AllReal (iblk m c 3 t : Vec Ideal S512 .f32) := fun (i : S512.Idx) => by
    obtain ⟨k', rfl⟩ : ∃ (k' : Fin 512), i = ix1 k' := ⟨i 0, eq_ix1 i⟩
    rw [iblk3_apply]; exact hr3 _
  have hA4 : Cert.Spec.AllReal (iblk m c 4 t : Vec Ideal S512 .f32) := fun (i : S512.Idx) => by
    obtain ⟨k', rfl⟩ : ∃ (k' : Fin 512), i = ix1 k' := ⟨i 0, eq_ix1 i⟩
    rw [iblk4_apply]; exact hr4 _
  refine (Cert.KernelIdeal.Pay.pay1_apply (iblk m c 0 t) (iblk m c 1 t) (iblk m c 2 t) (iblk m c 3 t) (iblk m c 4 t)
    (iblk m c 5 t) (iblk m c 6 t) hA0 hA1 hA2 hA3 hA4 p r q).trans ?_
  show _ = G m c (((cfg0.win 7).blk t).view.emb (ix3 p r q))
  rw [hemb]
  show _ = Cert.Spec.sample (fun n j => enc m c (ix3 (row t p) n j)) (fun n j => pos m c (ix3 (row t p) n j))
    (fun n j => memb m c (ix3 (row t p) n j)) (fun j => gam m c (ix1 j)) (fun j => bet m c (ix1 j))
    (fun n => mid m c (ix2 (row t p) n)) (fun n => uid m c (ix2 (row t p) n)) r q
  simp only [iblk0_apply, iblk1_apply, iblk2_apply, iblk3_apply, iblk4_apply, iblk5_apply, iblk6_apply]

/-- An index of the array is in point `t`'s block iff each coordinate is in the block's range on its axis. -/
theorem mem_blk (t : Fin cfg0.N) (i : S128x1024x512.Idx) :
    i ∈ ((cfg0.win 7).blk t).view.set ↔ ∀ a : Fin 3, win0_7.index t a * S2x1024x512.size a ≤ (i a).val ∧ (i a).val < win0_7.index t a * S2x1024x512.size a + S2x1024x512.size a := by
  show i ∈ ((View.whole main_v2).slice (win0_7.rect t)).set ↔ _
  rw [View.set_slice_whole, Rect.mem_set_unit]
  exact Iff.rfl

/-- Every index of the array is in the block of the point that handles its sample pair. -/
theorem cover (i : S128x1024x512.Idx) :
    ∃ t : Fin cfg0.N, (cfg0.win 7).flush t = true ∧ i ∈ ((cfg0.win 7).blk t).view.set := by
  have hi0 : (i 0).val < 128 := (i 0).isLt
  have hi1 : (i 1).val < 1024 := (i 1).isLt
  have hi2 : (i 2).val < 512 := (i 2).isLt
  let t : Fin cfg0.N := ⟨(i 0).val / 2, by rw [hN]; omega⟩
  obtain ⟨-, -, -, -, -, -, -, ⟨e0, e1, e2⟩⟩ := idx_facts t
  have ht : t.val = (i 0).val / 2 := rfl
  refine ⟨t, flush0_7 t, ?_⟩
  rw [mem_blk]
  intro a
  match a with
  | ⟨0, _⟩ => show win0_7.index t (0 : Fin 3) * 2 ≤ (i 0).val ∧ (i 0).val < win0_7.index t (0 : Fin 3) * 2 + 2; rw [e0, ht]; omega
  | ⟨1, _⟩ => show win0_7.index t (1 : Fin 3) * 1024 ≤ (i 1).val ∧ (i 1).val < win0_7.index t (1 : Fin 3) * 1024 + 1024; rw [e1]; omega
  | ⟨2, _⟩ => show win0_7.index t (2 : Fin 3) * 512 ≤ (i 2).val ∧ (i 2).val < win0_7.index t (2 : Fin 3) * 512 + 512; rw [e2]; omega

/-- THE ARRAY after the run is the specified array. -/
theorem final (c : Dev nD) (hr : RealArgs m c) : (dats m 0 c).arrAt 7 cfg0.N = G m c :=
  (dats m 0 c).arrAt_eq_of_cover 7 (G m c) (fun t _ => flushed_eq m c hr t) cover

/-- The kernel's run, read: the result array is the specified array of the arguments, the arguments unchanged. -/
theorem run (hr : ∀ c : Dev nD, RealArgs m c) : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (hr c)), (h c).2⟩) (run_blocks m ρ)

end Cert.KernelIdeal.Blocks

end
-- ==== Proof.LibScatterSet.lean ====
import Idealize.ShloMosaic.PureOps.ShapeOps

/-! # A scatter that SETS, read at an index

`Host.scatter d (fun _ b => b) x idx upd` folds over the update indices in row-major order, each update
replacing the element it lands on. At an index `i` that exactly one update lands on, the result is that
update; at an index no update lands on, it is the operand. -/

namespace Cert.Lib

open Idealize.ShloMosaic

/-- One step of the fold that defines a setting scatter: the update numbered `n` in row-major order replaces
the element of `r` at the index it lands on, and is dropped when it lands outside the operand. -/
def scatterSetStep {α : Type} {s si u : Shape} {w : Nat} (d : ScatterDims s si u) (idx : IVec si w)
    (upd : u.Idx → α) (r : s.Idx → α) (n : Fin u.numel) : s.Idx → α :=
  match d.resultIdx? (u.rowMajor.symm n) idx with
  | some i => fun i' => if i' = i then upd (u.rowMajor.symm n) else r i'
  | none => r

/-- A setting scatter is the left fold of `scatterSetStep` over the update numbers in increasing order. -/
theorem scatter_set_eq_foldl {α : Type} {s si u : Shape} {w : Nat} (d : ScatterDims s si u) (x : s.Idx → α)
    (idx : IVec si w) (upd : u.Idx → α) :
    Host.scatter d (fun _ b => b) x idx upd = (List.finRange u.numel).foldl (scatterSetStep d idx upd) x :=
  rfl

/-- A step whose update lands on `i` leaves that update at `i`. -/
theorem scatterSetStep_apply_of_hit {α : Type} {s si u : Shape} {w : Nat} (d : ScatterDims s si u)
    (idx : IVec si w) (upd : u.Idx → α) (r : s.Idx → α) (n : Fin u.numel) (i : s.Idx)
    (h : d.resultIdx? (u.rowMajor.symm n) idx = some i) :
    scatterSetStep d idx upd r n i = upd (u.rowMajor.symm n) := by
  unfold scatterSetStep
  generalize d.resultIdx? (u.rowMajor.symm n) idx = o at h
  subst h
  exact if_pos rfl

/-- A step whose update does not land on `i` leaves the element at `i` as it was. -/
theorem scatterSetStep_apply_of_miss {α : Type} {s si u : Shape} {w : Nat} (d : ScatterDims s si u)
    (idx : IVec si w) (upd : u.Idx → α) (r : s.Idx → α) (n : Fin u.numel) (i : s.Idx)
    (h : d.resultIdx? (u.rowMajor.symm n) idx ≠ some i) :
    scatterSetStep d idx upd r n i = r i := by
  unfold scatterSetStep
  generalize d.resultIdx? (u.rowMajor.symm n) idx = o at h
  cases o with
  | none => rfl
  | some i0 => exact if_neg (fun (e : i = i0) => h (congrArg some e.symm))

/-- A fold of steps none of which lands on `i` leaves the element at `i` as it was. -/
theorem foldl_scatterSetStep_apply_of_miss {α : Type} {s si u : Shape} {w : Nat} (d : ScatterDims s si u)
    (idx : IVec si w) (upd : u.Idx → α) (i : s.Idx) (l : List (Fin u.numel)) (r : s.Idx → α)
    (h : ∀ n ∈ l, d.resultIdx? (u.rowMajor.symm n) idx ≠ some i) :
    l.foldl (scatterSetStep d idx upd) r i = r i := by
  induction l generalizing r with
  | nil => rfl
  | cons n l ih =>
    rw [List.foldl_cons, ih _ (fun m hm => h m (List.mem_cons_of_mem _ hm))]
    exact scatterSetStep_apply_of_miss d idx upd r n i (h n List.mem_cons_self)

/-- A fold of steps of which `n0` lands on `i` and every other one does not leaves the update of `n0` at `i`. -/
theorem foldl_scatterSetStep_apply_of_hit {α : Type} {s si u : Shape} {w : Nat} (d : ScatterDims s si u)
    (idx : IVec si w) (upd : u.Idx → α) (i : s.Idx) (n0 : Fin u.numel)
    (hit : d.resultIdx? (u.rowMajor.symm n0) idx = some i) (l : List (Fin u.numel)) (r : s.Idx → α)
    (hmem : n0 ∈ l) (hoth : ∀ n ∈ l, n ≠ n0 → d.resultIdx? (u.rowMajor.symm n) idx ≠ some i) :
    l.foldl (scatterSetStep d idx upd) r i = upd (u.rowMajor.symm n0) := by
  induction l generalizing r with
  | nil => exact absurd hmem (by simp)
  | cons n l ih =>
    rw [List.foldl_cons]
    by_cases hl : n0 ∈ l
    · exact ih _ hl (fun m hm hne => hoth m (List.mem_cons_of_mem _ hm) hne)
    · have hn : n0 = n := (List.mem_cons.1 hmem).resolve_right hl
      subst hn
      rw [foldl_scatterSetStep_apply_of_miss d idx upd i l _
        (fun m hm => hoth m (List.mem_cons_of_mem _ hm) (fun e => hl (e ▸ hm)))]
      exact scatterSetStep_apply_of_hit d idx upd r n0 i hit

/-- The result at an index that exactly one update index `j` lands on is the update at `j`. -/
theorem scatter_set_apply_of_unique {α : Type} {s si u : Shape} {w : Nat} (d : ScatterDims s si u) (x : s.Idx → α)
    (idx : IVec si w) (upd : u.Idx → α) (i : s.Idx) (j : u.Idx) (hj : d.resultIdx? j idx = some i)
    (huniq : ∀ j', d.resultIdx? j' idx = some i → j' = j) :
    Host.scatter d (fun _ b => b) x idx upd i = upd j := by
  have hit : d.resultIdx? (u.rowMajor.symm (u.rowMajor j)) idx = some i := by
    rw [Equiv.symm_apply_apply]; exact hj
  have key := foldl_scatterSetStep_apply_of_hit d idx upd i (u.rowMajor j) hit (List.finRange u.numel) x
    (List.mem_finRange _)
    (fun n _ hne hn => hne (by rw [← huniq _ hn, Equiv.apply_symm_apply]))
  rw [scatter_set_eq_foldl, key, Equiv.symm_apply_apply]

/-- The result at an index no update lands on is the operand there. -/
theorem scatter_set_apply_of_none {α : Type} {s si u : Shape} {w : Nat} (d : ScatterDims s si u) (x : s.Idx → α)
    (idx : IVec si w) (upd : u.Idx → α) (i : s.Idx) (h : ∀ j, d.resultIdx? j idx ≠ some i) :
    Host.scatter d (fun _ b => b) x idx upd i = x i := by
  rw [scatter_set_eq_foldl]
  exact foldl_scatterSetStep_apply_of_miss d idx upd i (List.finRange u.numel) x (fun n _ => h _)

end Cert.Lib
-- ==== Proof.RefLN.lean ====
import proofs.«422696_j35751307772079_3_alg».proof.Proof.Gen.ReferenceIdeal.Read
import proofs.«422696_j35751307772079_3_alg».proof.Proof.Spec
import Idealize.ShloMosaic.PureOps.Ideal.Laws
import Idealize.ShloMosaic.Lib.ValueIdx

/-! # The reference's normalised array, row by row -/

noncomputable section

namespace Cert.ReferenceIdeal.RefValue

open Cert.ReferenceIdeal Cert.ReferenceIdeal.Gen Idealize.ShloMosaic Idealize.ShloMosaic.ValueIdx
open scoped BigOperators

/-- The row sum's operand index at `(b, n)`, `k` is `(b, n, k)`. -/
private theorem idx_v1_ix (b : Fin 128) (n : Fin 256) (k : Fin 512) : Read.idx_main_v1 (ix2 b n) k = ix3 b n k :=
  funext fun a => Fin.ext (by match a with | ⟨0, _⟩ => rfl | ⟨1, _⟩ => rfl | ⟨2, _⟩ => rfl)

private theorem idx_v8_ix (b : Fin 128) (n : Fin 256) (k : Fin 512) : Read.idx_main_v8 (ix2 b n) k = ix3 b n k :=
  funext fun a => Fin.ext (by match a with | ⟨0, _⟩ => rfl | ⟨1, _⟩ => rfl | ⟨2, _⟩ => rfl)

private theorem idx_v2_ix (b : Fin 128) (n : Fin 256) (z : Fin 1) : Read.idx_main_v2 (ix3 b n z) = ix2 b n :=
  funext fun a => Fin.ext (by match a with | ⟨0, _⟩ => rfl | ⟨1, _⟩ => rfl)

private theorem idx_v9_ix (b : Fin 128) (n : Fin 256) (z : Fin 1) : Read.idx_main_v9 (ix3 b n z) = ix2 b n :=
  funext fun a => Fin.ext (by match a with | ⟨0, _⟩ => rfl | ⟨1, _⟩ => rfl)

private theorem idx_v5_ix (b : Fin 128) (n : Fin 256) (k : Fin 512) : Read.idx_main_v5 (ix3 b n k) = ix3 b n (0 : Fin 1) :=
  funext fun a => Fin.ext (by match a with | ⟨0, _⟩ => rfl | ⟨1, _⟩ => rfl | ⟨2, _⟩ => rfl)

private theorem idx_v12_ix (b : Fin 128) (n : Fin 256) (k : Fin 512) : Read.idx_main_v12 (ix3 b n k) = ix3 b n (0 : Fin 1) :=
  funext fun a => Fin.ext (by match a with | ⟨0, _⟩ => rfl | ⟨1, _⟩ => rfl | ⟨2, _⟩ => rfl)

private theorem idx_v17_ix (b : Fin 128) (n : Fin 256) (k : Fin 512) : Read.idx_main_v17 (ix3 b n k) = ix3 b n (0 : Fin 1) :=
  funext fun a => Fin.ext (by match a with | ⟨0, _⟩ => rfl | ⟨1, _⟩ => rfl | ⟨2, _⟩ => rfl)

private theorem idx_v19_v20_ix (b : Fin 128) (n : Fin 256) (k : Fin 512) :
    Read.idx_main_v19 (Read.idx_main_v20 (ix3 b n k)) = ix1 k :=
  funext fun a => Fin.ext (by match a with | ⟨0, _⟩ => rfl)

private theorem idx_v22_v23_ix (b : Fin 128) (n : Fin 256) (k : Fin 512) :
    Read.idx_main_v22 (Read.idx_main_v23 (ix3 b n k)) = ix1 k :=
  funext fun a => Fin.ext (by match a with | ⟨0, _⟩ => rfl)

/-- The row sum of the two arguments' sum at `(b, n)`. -/
private theorem v1_ix (x0 x1 : (⟨S128x256x512, .f32⟩ : BufTy).Contents (Elt Ideal)) (b : Fin 128) (n : Fin 256) :
    Read.val_main_v1 (F := Ideal) x0 x1 (ix2 b n) = ∑ j : Fin 512, (x0 (ix3 b n j) + x1 (ix3 b n j)) := by
  rw [Read.val_main_v1_apply, Read.val_main_cst_apply, Ideal.ofBits_def, Ideal.ofBits_zero_f32, zero_add]
  refine Finset.sum_congr rfl fun j _ => ?_
  rw [idx_v1_ix, Read.val_main_v0_apply, Ideal.addf_def]

/-- The row mean at `(b, n)`. -/
private theorem v4_ix (x0 x1 : (⟨S128x256x512, .f32⟩ : BufTy).Contents (Elt Ideal)) (b : Fin 128) (n : Fin 256) (z : Fin 1) :
    Read.val_main_v4 (F := Ideal) x0 x1 (ix3 b n z)
      = Cert.Spec.rowMean (fun j => x0 (ix3 b n j) + x1 (ix3 b n j)) := by
  rw [Read.val_main_v4_apply, Read.val_main_v2_apply, Read.val_main_v3_apply, Read.val_main_cst_0_apply,
    Ideal.hostDivf_def, Ideal.ofBits_def, idx_v2_ix, v1_ix]
  rfl

/-- The centred row at `(b, n, k)`, as the first subtraction computes it. -/
private theorem v6_ix (x0 x1 : (⟨S128x256x512, .f32⟩ : BufTy).Contents (Elt Ideal)) (b : Fin 128) (n : Fin 256) (k : Fin 512) :
    Read.val_main_v6 (F := Ideal) x0 x1 (ix3 b n k)
      = Cert.Spec.centred (fun j => x0 (ix3 b n j) + x1 (ix3 b n j)) k := by
  rw [Read.val_main_v6_apply, Read.val_main_v5_apply, Read.val_main_v0_apply, Ideal.subf_def, Ideal.addf_def,
    idx_v5_ix, v4_ix]
  rfl

/-- The centred row at `(b, n, k)`, as the second subtraction computes it. -/
private theorem v13_ix (x0 x1 : (⟨S128x256x512, .f32⟩ : BufTy).Contents (Elt Ideal)) (b : Fin 128) (n : Fin 256) (k : Fin 512) :
    Read.val_main_v13 (F := Ideal) x0 x1 (ix3 b n k)
      = Cert.Spec.centred (fun j => x0 (ix3 b n j) + x1 (ix3 b n j)) k := by
  rw [Read.val_main_v13_apply, Read.val_main_v12_apply, Read.val_main_v0_apply, Ideal.subf_def, Ideal.addf_def,
    idx_v12_ix, v4_ix]
  rfl

/-- The row's variance at `(b, n)`: the mean of the squared centred row. -/
private theorem v11_ix (x0 x1 : (⟨S128x256x512, .f32⟩ : BufTy).Contents (Elt Ideal)) (b : Fin 128) (n : Fin 256) (z : Fin 1) :
    Read.val_main_v11 (F := Ideal) x0 x1 (ix3 b n z)
      = Cert.Spec.rowMean (fun j => Cert.Spec.centred (fun j => x0 (ix3 b n j) + x1 (ix3 b n j)) j
          * Cert.Spec.centred (fun j => x0 (ix3 b n j) + x1 (ix3 b n j)) j) := by
  rw [Read.val_main_v11_apply, Read.val_main_v9_apply, Read.val_main_v10_apply, Read.val_main_cst_2_apply,
    Ideal.hostDivf_def, Ideal.ofBits_def, idx_v9_ix, Read.val_main_v8_apply, Read.val_main_cst_1_apply,
    Ideal.ofBits_def, Ideal.ofBits_zero_f32, zero_add]
  unfold Cert.Spec.rowMean
  refine congrArg (fun s => Ideal.div s Cert.Spec.c512) (Finset.sum_congr rfl fun j _ => ?_)
  rw [idx_v8_ix, Read.val_main_v7_apply, Ideal.mulf_def, v6_ix]

/-- The reciprocal square root of the variance plus epsilon, at `(b, n)`. -/
private theorem v16_ix (x0 x1 : (⟨S128x256x512, .f32⟩ : BufTy).Contents (Elt Ideal)) (b : Fin 128) (n : Fin 256) (z : Fin 1) :
    Read.val_main_v16 (F := Ideal) x0 x1 (ix3 b n z)
      = Ideal.rsqrt (Cert.Spec.rowMean (fun j => Cert.Spec.centred (fun j => x0 (ix3 b n j) + x1 (ix3 b n j)) j
          * Cert.Spec.centred (fun j => x0 (ix3 b n j) + x1 (ix3 b n j)) j) + Cert.Spec.eps) := by
  rw [Read.val_main_v16_apply, Read.val_main_v15_apply, Read.val_main_v14_apply, Read.val_main_cst_3_apply,
    Ideal.hostUnary_rsqrt_def, Ideal.addf_def, Ideal.ofBits_def, v11_ix]
  rfl

/-- Entry `(b, n, k)` of the reference's normalised array is the layer normalisation of row `(b, n)` of the sum of
    the first two arguments, with the scale and shift arguments. -/
theorem ln_apply (x0 x1 : (⟨S128x256x512, .f32⟩ : BufTy).Contents (Elt Ideal)) (x3 x4 : (⟨S512, .f32⟩ : BufTy).Contents (Elt Ideal))
    (b : Fin 128) (n : Fin 256) (k : Fin 512) :
    Read.val_main_v24 (F := Ideal) x0 x1 x3 x4 (ix3 b n k)
      = Cert.Spec.lnRow (fun j => x0 (ix3 b n j) + x1 (ix3 b n j)) (fun j => x3 (ix1 j)) (fun j => x4 (ix1 j)) k := by
  rw [Read.val_main_v24_apply, Read.val_main_v21_apply, Read.val_main_v23_apply, Read.val_main_v22_apply,
    Read.val_main_v18_apply, Read.val_main_v20_apply, Read.val_main_v19_apply, Read.val_main_v17_apply,
    Ideal.addf_def, Ideal.mulf_def, Ideal.mulf_def, idx_v19_v20_ix, idx_v22_v23_ix, idx_v17_ix, v13_ix, v16_ix]
  rfl

end Cert.ReferenceIdeal.RefValue

end
-- ==== Proof.RefIdx.lean ====
import proofs.«422696_j35751307772079_3_alg».proof.Proof.Gen.ReferenceIdeal.Read
import Idealize.ShloMosaic.Lib.Pipeline.Value
import Idealize.ShloMosaic.Lib.ValueIdx

/-! # Where an update row lands, and the index arrays the reference scatters with -/

noncomputable section

namespace Cert.ReferenceIdeal.RefValue

open Cert.ReferenceIdeal Cert.ReferenceIdeal.Gen Idealize.ShloMosaic Idealize.ShloMosaic.ValueIdx

/-- An update lands on `i` exactly when start plus window coordinate is `i`'s coordinate on each of the three axes:
    if every axis is in bounds the landing index has those coordinates; if the three equations hold every axis is in
    bounds, since `i`'s coordinates are. -/
theorem resultIdx_iff_of_axes {si u : Shape} (d : ScatterDims S128x1024x512 si u) {w : Nat} (j : u.Idx) (idx : IVec si w)
    (p q : Int) (k : Nat)
    (E0 : d.start j idx 0 + d.window j 0 = p) (E1 : d.start j idx 1 + d.window j 1 = q)
    (E2 : d.start j idx 2 + d.window j 2 = (k : Int)) (i : S128x1024x512.Idx) :
    d.resultIdx? j idx = some i ↔ (p = ((i 0).val : Int) ∧ q = ((i 1).val : Int) ∧ k = (i 2).val) := by
  unfold ScatterDims.resultIdx?
  split
  · next hIn =>
    have n0 : 0 ≤ p := E0 ▸ (hIn 0).1
    have n1 : 0 ≤ q := E1 ▸ (hIn 1).1
    constructor
    · intro he
      have he' := Option.some.inj he
      have h0 : (d.start j idx 0 + d.window j 0).toNat = (i 0).val := congrArg Fin.val (congrFun he' 0)
      have h1 : (d.start j idx 1 + d.window j 1).toNat = (i 1).val := congrArg Fin.val (congrFun he' 1)
      have h2 : (d.start j idx 2 + d.window j 2).toNat = (i 2).val := congrArg Fin.val (congrFun he' 2)
      rw [E0] at h0; rw [E1] at h1; rw [E2] at h2
      refine ⟨?_, ?_, ?_⟩ <;> omega
    · rintro ⟨h0, h1, h2⟩
      refine congrArg some (funext fun a => ?_)
      match a with
      | ⟨0, _⟩ =>
        apply Fin.ext
        show (d.start j idx 0 + d.window j 0).toNat = (i 0).val
        rw [E0, h0]; exact Int.toNat_natCast _
      | ⟨1, _⟩ =>
        apply Fin.ext
        show (d.start j idx 1 + d.window j 1).toNat = (i 1).val
        rw [E1, h1]; exact Int.toNat_natCast _
      | ⟨2, _⟩ =>
        apply Fin.ext
        show (d.start j idx 2 + d.window j 2).toNat = (i 2).val
        rw [E2, h2]; exact Int.toNat_natCast _
  · next hOut =>
    constructor
    · intro he; exact absurd he (by simp)
    · rintro ⟨h0, h1, h2⟩
      exfalso; apply hOut
      intro a
      match a with
      | ⟨0, _⟩ =>
        show 0 ≤ d.start j idx 0 + d.window j 0 ∧ d.start j idx 0 + d.window j 0 < ((S128x1024x512.size 0 : Nat) : Int)
        rw [E0, h0]; exact ⟨Int.natCast_nonneg _, Int.ofNat_lt.mpr (i 0).isLt⟩
      | ⟨1, _⟩ =>
        show 0 ≤ d.start j idx 1 + d.window j 1 ∧ d.start j idx 1 + d.window j 1 < ((S128x1024x512.size 1 : Nat) : Int)
        rw [E1, h1]; exact ⟨Int.natCast_nonneg _, Int.ofNat_lt.mpr (i 1).isLt⟩
      | ⟨2, _⟩ =>
        show 0 ≤ d.start j idx 2 + d.window j 2 ∧ d.start j idx 2 + d.window j 2 < ((S128x1024x512.size 2 : Nat) : Int)
        rw [E2, h2]; exact ⟨Int.natCast_nonneg _, Int.ofNat_lt.mpr (i 2).isLt⟩

/-! The masked scatter, axis by axis: the index pair starts the window on the first two axes, which carry no window
    coordinate; the third axis starts at zero and carries the update's feature coordinate. -/

theorem start_m0 (idx : IVec S128x768x2 32) (b : Fin 128) (n : Fin 768) (k : Fin 512) :
    scatter_S128x1024x512_S128x768x2_S128x768x512_2_01_01_2.start (ix3 b n k) idx (0 : Fin 3)
      = (idx (ix3 b n 0)).toInt := by
  unfold ScatterDims.start
  rw [dif_pos (show (0 : Fin 3) ∈ scatter_S128x1024x512_S128x768x2_S128x768x512_2_01_01_2.scatterDimsToOperandDims from by decide)]
  refine congrArg (fun v => (idx v).toInt) ?_
  funext a
  match a with
  | ⟨0, _⟩ => rfl
  | ⟨1, _⟩ => rfl
  | ⟨2, _⟩ => rfl

theorem start_m1 (idx : IVec S128x768x2 32) (b : Fin 128) (n : Fin 768) (k : Fin 512) :
    scatter_S128x1024x512_S128x768x2_S128x768x512_2_01_01_2.start (ix3 b n k) idx (1 : Fin 3)
      = (idx (ix3 b n 1)).toInt := by
  unfold ScatterDims.start
  rw [dif_pos (show (1 : Fin 3) ∈ scatter_S128x1024x512_S128x768x2_S128x768x512_2_01_01_2.scatterDimsToOperandDims from by decide)]
  refine congrArg (fun v => (idx v).toInt) ?_
  funext a
  match a with
  | ⟨0, _⟩ => rfl
  | ⟨1, _⟩ => rfl
  | ⟨2, _⟩ => rfl

theorem start_m2 (idx : IVec S128x768x2 32) (b : Fin 128) (n : Fin 768) (k : Fin 512) :
    scatter_S128x1024x512_S128x768x2_S128x768x512_2_01_01_2.start (ix3 b n k) idx (2 : Fin 3) = 0 := by
  unfold ScatterDims.start
  exact dif_neg (show ¬ (2 : Fin 3) ∈ scatter_S128x1024x512_S128x768x2_S128x768x512_2_01_01_2.scatterDimsToOperandDims from by decide)

theorem window_m0 (b : Fin 128) (n : Fin 768) (k : Fin 512) :
    scatter_S128x1024x512_S128x768x2_S128x768x512_2_01_01_2.window (ix3 b n k) (0 : Fin 3) = 0 := by
  unfold ScatterDims.window
  exact dif_neg (show ¬ (0 : Fin 3) ∈ scatter_S128x1024x512_S128x768x2_S128x768x512_2_01_01_2.sKept from by decide)

theorem window_m1 (b : Fin 128) (n : Fin 768) (k : Fin 512) :
    scatter_S128x1024x512_S128x768x2_S128x768x512_2_01_01_2.window (ix3 b n k) (1 : Fin 3) = 0 := by
  unfold ScatterDims.window
  exact dif_neg (show ¬ (1 : Fin 3) ∈ scatter_S128x1024x512_S128x768x2_S128x768x512_2_01_01_2.sKept from by decide)

theorem window_m2 (b : Fin 128) (n : Fin 768) (k : Fin 512) :
    scatter_S128x1024x512_S128x768x2_S128x768x512_2_01_01_2.window (ix3 b n k) (2 : Fin 3) = k.val := by
  unfold ScatterDims.window
  rw [dif_pos (show (2 : Fin 3) ∈ scatter_S128x1024x512_S128x768x2_S128x768x512_2_01_01_2.sKept from by decide)]
  rfl

/-- Update `(b, n, k)` of the masked scatter lands on `i` exactly when its index pair, read signed, is `(i 0, i 1)`
    and `k` is `i 2`: the pair starts the window on the first two axes, the window runs along the third. -/
theorem resultIdx_m_iff (idx : IVec S128x768x2 32) (b : Fin 128) (n : Fin 768) (k : Fin 512) (i : S128x1024x512.Idx) :
    scatter_S128x1024x512_S128x768x2_S128x768x512_2_01_01_2.resultIdx? (ix3 b n k) idx = some i
      ↔ ((idx (ix3 b n 0)).toInt = ((i 0).val : Int) ∧ (idx (ix3 b n 1)).toInt = ((i 1).val : Int) ∧ k.val = (i 2).val) := by
  refine resultIdx_iff_of_axes _ (ix3 b n k) idx _ _ k.val ?_ ?_ ?_ i
  · refine (congrArg₂ (fun (x : Int) (y : Nat) => x + (y : Int)) (start_m0 idx b n k) (window_m0 b n k)).trans ?_
    exact Int.add_zero _
  · refine (congrArg₂ (fun (x : Int) (y : Nat) => x + (y : Int)) (start_m1 idx b n k) (window_m1 b n k)).trans ?_
    exact Int.add_zero _
  · refine (congrArg₂ (fun (x : Int) (y : Nat) => x + (y : Int)) (start_m2 idx b n k) (window_m2 b n k)).trans ?_
    exact Int.zero_add _

/-! The visible rows' scatter, axis by axis, likewise. -/

theorem start_u0 (idx : IVec S128x256x2 32) (b : Fin 128) (n : Fin 256) (k : Fin 512) :
    scatter_S128x1024x512_S128x256x2_S128x256x512_2_01_01_2.start (ix3 b n k) idx (0 : Fin 3)
      = (idx (ix3 b n 0)).toInt := by
  unfold ScatterDims.start
  rw [dif_pos (show (0 : Fin 3) ∈ scatter_S128x1024x512_S128x256x2_S128x256x512_2_01_01_2.scatterDimsToOperandDims from by decide)]
  refine congrArg (fun v => (idx v).toInt) ?_
  funext a
  match a with
  | ⟨0, _⟩ => rfl
  | ⟨1, _⟩ => rfl
  | ⟨2, _⟩ => rfl

theorem start_u1 (idx : IVec S128x256x2 32) (b : Fin 128) (n : Fin 256) (k : Fin 512) :
    scatter_S128x1024x512_S128x256x2_S128x256x512_2_01_01_2.start (ix3 b n k) idx (1 : Fin 3)
      = (idx (ix3 b n 1)).toInt := by
  unfold ScatterDims.start
  rw [dif_pos (show (1 : Fin 3) ∈ scatter_S128x1024x512_S128x256x2_S128x256x512_2_01_01_2.scatterDimsToOperandDims from by decide)]
  refine congrArg (fun v => (idx v).toInt) ?_
  funext a
  match a with
  | ⟨0, _⟩ => rfl
  | ⟨1, _⟩ => rfl
  | ⟨2, _⟩ => rfl

theorem start_u2 (idx : IVec S128x256x2 32) (b : Fin 128) (n : Fin 256) (k : Fin 512) :
    scatter_S128x1024x512_S128x256x2_S128x256x512_2_01_01_2.start (ix3 b n k) idx (2 : Fin 3) = 0 := by
  unfold ScatterDims.start
  exact dif_neg (show ¬ (2 : Fin 3) ∈ scatter_S128x1024x512_S128x256x2_S128x256x512_2_01_01_2.scatterDimsToOperandDims from by decide)

theorem window_u0 (b : Fin 128) (n : Fin 256) (k : Fin 512) :
    scatter_S128x1024x512_S128x256x2_S128x256x512_2_01_01_2.window (ix3 b n k) (0 : Fin 3) = 0 := by
  unfold ScatterDims.window
  exact dif_neg (show ¬ (0 : Fin 3) ∈ scatter_S128x1024x512_S128x256x2_S128x256x512_2_01_01_2.sKept from by decide)

theorem window_u1 (b : Fin 128) (n : Fin 256) (k : Fin 512) :
    scatter_S128x1024x512_S128x256x2_S128x256x512_2_01_01_2.window (ix3 b n k) (1 : Fin 3) = 0 := by
  unfold ScatterDims.window
  exact dif_neg (show ¬ (1 : Fin 3) ∈ scatter_S128x1024x512_S128x256x2_S128x256x512_2_01_01_2.sKept from by decide)

theorem window_u2 (b : Fin 128) (n : Fin 256) (k : Fin 512) :
    scatter_S128x1024x512_S128x256x2_S128x256x512_2_01_01_2.window (ix3 b n k) (2 : Fin 3) = k.val := by
  unfold ScatterDims.window
  rw [dif_pos (show (2 : Fin 3) ∈ scatter_S128x1024x512_S128x256x2_S128x256x512_2_01_01_2.sKept from by decide)]
  rfl

/-- The same for the visible rows' scatter. -/
theorem resultIdx_u_iff (idx : IVec S128x256x2 32) (b : Fin 128) (n : Fin 256) (k : Fin 512) (i : S128x1024x512.Idx) :
    scatter_S128x1024x512_S128x256x2_S128x256x512_2_01_01_2.resultIdx? (ix3 b n k) idx = some i
      ↔ ((idx (ix3 b n 0)).toInt = ((i 0).val : Int) ∧ (idx (ix3 b n 1)).toInt = ((i 1).val : Int) ∧ k.val = (i 2).val) := by
  refine resultIdx_iff_of_axes _ (ix3 b n k) idx _ _ k.val ?_ ?_ ?_ i
  · refine (congrArg₂ (fun (x : Int) (y : Nat) => x + (y : Int)) (start_u0 idx b n k) (window_u0 b n k)).trans ?_
    exact Int.add_zero _
  · refine (congrArg₂ (fun (x : Int) (y : Nat) => x + (y : Int)) (start_u1 idx b n k) (window_u1 b n k)).trans ?_
    exact Int.add_zero _
  · refine (congrArg₂ (fun (x : Int) (y : Nat) => x + (y : Int)) (start_u2 idx b n k) (window_u2 b n k)).trans ?_
    exact Int.zero_add _

/-- A word that reads non-negative signed is not below zero, so the wrap-around select keeps it. -/
theorem select_slt_zero {α : Type} (a : BitVec 32) (h : 0 ≤ a.toInt) (x y : α) :
    Scalar.select (IntOp.cmpi .slt a 0#32) x y = y := by
  have hs : a.slt 0#32 = false := by
    simp only [BitVec.slt, BitVec.toInt_zero, decide_eq_false_iff_not, not_lt]
    exact h
  have hc : IntOp.cmpi .slt a 0#32 = BitVec.ofBool (a.slt 0#32) := rfl
  unfold Scalar.select
  rw [hc, hs]
  exact if_neg (by decide)

/-- A sample number below 128, as a 32-bit word, reads non-negative signed. -/
theorem toInt_ofNat_fin128 (b : Fin 128) : 0 ≤ (BitVec.ofNat 32 b.val).toInt := by
  have hb := b.isLt
  rw [BitVec.toInt_eq_msb_cond, BitVec.msb_eq_false_iff_two_mul_lt.mpr (by simp [BitVec.toNat_ofNat]; omega)]
  simp only [Bool.false_eq_true, if_false]
  exact Int.natCast_nonneg _

/-- The masked scatter's index pair at row `(b, n)`: the sample number `b`, … -/
theorem idx41_batch (x5 : (⟨S128x768, .i32⟩ : BufTy).Contents (Elt Ideal)) (b : Fin 128) (n : Fin 768) :
    Read.val_main_v41 (F := Ideal) x5 (ix3 b n 0) = BitVec.ofNat 32 b.val := by
  unfold Read.val_main_v41
  refine (concatenate_pair_apply_left (t := S128x768x2) (s₁ := S128x768x1) (s₂ := S128x768x1) (2 : Fin 3) _ _ _
    (ix3 b n (0 : Fin 2)) rfl (ix3 b n (0 : Fin 1))
    (fun a => match a with | ⟨0, _⟩ => rfl | ⟨1, _⟩ => rfl | ⟨2, _⟩ => rfl)).trans ?_
  rw [Read.val_main_v39_apply, Read.val_main_v38_apply, Read.val_main_v32_apply, Read.val_main_v29_apply,
    Read.val_main_v28_apply, Read.val_main_c_apply, Read.val_main_v26_apply, Read.val_main_v25_apply]
  exact select_slt_zero (BitVec.ofNat 32 b.val) (toInt_ofNat_fin128 b) _ _

/-- … and the row's position word, which a non-negative word passes through the wrap-around of negative indices unchanged. -/
theorem idx41_pos (x5 : (⟨S128x768, .i32⟩ : BufTy).Contents (Elt Ideal)) (b : Fin 128) (n : Fin 768)
    (h : 0 ≤ (x5 (ix2 b n)).toInt) :
    Read.val_main_v41 (F := Ideal) x5 (ix3 b n 1) = x5 (ix2 b n) := by
  unfold Read.val_main_v41
  refine (concatenate_pair_apply_right (t := S128x768x2) (s₁ := S128x768x1) (s₂ := S128x768x1) (2 : Fin 3) _ _ _
    (ix3 b n (1 : Fin 2)) rfl rfl (ix3 b n (0 : Fin 1))
    (fun a => match a with | ⟨0, _⟩ => fun _ => rfl | ⟨1, _⟩ => fun _ => rfl | ⟨2, _⟩ => fun hne => absurd rfl hne) rfl).trans ?_
  rw [Read.val_main_v40_apply, Read.val_main_v37_apply, Read.val_main_v34_apply,
    Read.val_main_v33_apply, Read.val_main_c_6_apply]
  have e : Read.idx_main_v40 (ix3 b n (0 : Fin 1)) = ix2 b n := by
    funext a; match a with | ⟨0, _⟩ => rfl | ⟨1, _⟩ => rfl
  rw [e]
  exact select_slt_zero _ h _ _

/-- The visible scatter's index pair likewise. -/
theorem idx56_batch (x6 : (⟨S128x256, .i32⟩ : BufTy).Contents (Elt Ideal)) (b : Fin 128) (n : Fin 256) :
    Read.val_main_v56 (F := Ideal) x6 (ix3 b n 0) = BitVec.ofNat 32 b.val := by
  unfold Read.val_main_v56
  refine (concatenate_pair_apply_left (t := S128x256x2) (s₁ := S128x256x1) (s₂ := S128x256x1) (2 : Fin 3) _ _ _
    (ix3 b n (0 : Fin 2)) rfl (ix3 b n (0 : Fin 1))
    (fun a => match a with | ⟨0, _⟩ => rfl | ⟨1, _⟩ => rfl | ⟨2, _⟩ => rfl)).trans ?_
  rw [Read.val_main_v54_apply, Read.val_main_v53_apply, Read.val_main_v47_apply, Read.val_main_v44_apply,
    Read.val_main_v43_apply, Read.val_main_c_8_apply, Read.val_main_v26_apply, Read.val_main_v25_apply]
  exact select_slt_zero (BitVec.ofNat 32 b.val) (toInt_ofNat_fin128 b) _ _

theorem idx56_pos (x6 : (⟨S128x256, .i32⟩ : BufTy).Contents (Elt Ideal)) (b : Fin 128) (n : Fin 256)
    (h : 0 ≤ (x6 (ix2 b n)).toInt) :
    Read.val_main_v56 (F := Ideal) x6 (ix3 b n 1) = x6 (ix2 b n) := by
  unfold Read.val_main_v56
  refine (concatenate_pair_apply_right (t := S128x256x2) (s₁ := S128x256x1) (s₂ := S128x256x1) (2 : Fin 3) _ _ _
    (ix3 b n (1 : Fin 2)) rfl rfl (ix3 b n (0 : Fin 1))
    (fun a => match a with | ⟨0, _⟩ => fun _ => rfl | ⟨1, _⟩ => fun _ => rfl | ⟨2, _⟩ => fun hne => absurd rfl hne) rfl).trans ?_
  rw [Read.val_main_v55_apply, Read.val_main_v52_apply, Read.val_main_v49_apply,
    Read.val_main_v48_apply, Read.val_main_c_10_apply]
  have e : Read.idx_main_v55 (ix3 b n (0 : Fin 1)) = ix2 b n := by
    funext a; match a with | ⟨0, _⟩ => rfl | ⟨1, _⟩ => rfl
  rw [e]
  exact select_slt_zero _ h _ _

end Cert.ReferenceIdeal.RefValue

end
-- ==== Proof.RefValue.lean ====
import proofs.«422696_j35751307772079_3_alg».proof.Proof.Gen.ReferenceIdeal.Read
import proofs.«422696_j35751307772079_3_alg».proof.Proof.Spec
import proofs.«422696_j35751307772079_3_alg».proof.Proof.SpecFacts
import proofs.«422696_j35751307772079_3_alg».proof.Proof.LibScatterSet
import proofs.«422696_j35751307772079_3_alg».proof.Proof.RefLN
import proofs.«422696_j35751307772079_3_alg».proof.Proof.RefIdx
import Idealize.ShloMosaic.Lib.ValueIdx
import Idealize.ShloMosaic.Lib.StableHlo.Predicate

/-! # The reference's result is the specified array when the positions are distinct and in range -/

noncomputable section

namespace Cert.ReferenceIdeal.RefValue

open Cert.ReferenceIdeal Cert.ReferenceIdeal.Gen Idealize.ShloMosaic Idealize.ShloMosaic.ValueIdx

/-- A visible update `(b', n, k')` lands on `(b, t, k)` exactly when `b' = b`, the row's position word is the word
    of `t`, and `k' = k`: the index pair is the sample number and the position word, both read signed. -/
theorem land_u_iff (x6 : (⟨S128x256, .i32⟩ : BufTy).Contents (Elt Ideal))
    (hr : ∀ (b : Fin 128) (n : Fin 256), 0 ≤ (x6 (ix2 b n)).toInt)
    (b' : Fin 128) (n : Fin 256) (k' : Fin 512) (b : Fin 128) (t : Fin 1024) (k : Fin 512) :
    scatter_S128x1024x512_S128x256x2_S128x256x512_2_01_01_2.resultIdx? (ix3 b' n k') (Read.val_main_v56 (F := Ideal) x6)
        = some (ix3 b t k)
      ↔ (b' = b ∧ x6 (ix2 b' n) = BitVec.ofNat 32 t.val ∧ k' = k) := by
  rw [resultIdx_u_iff, idx56_batch, idx56_pos x6 b' n (hr b' n)]
  show ((BitVec.ofNat 32 b'.val).toInt = (b.val : Int) ∧ (x6 (ix2 b' n)).toInt = (t.val : Int) ∧ k'.val = k.val) ↔ _
  rw [StableHlo.Predicate.toInt_ofNat_small b'.val (by omega)]
  constructor
  · rintro ⟨h0, h1, h2⟩
    exact ⟨Fin.ext (by exact_mod_cast h0),
      BitVec.eq_of_toInt_eq (h1.trans (StableHlo.Predicate.toInt_ofNat_small t.val (by omega)).symm), Fin.ext h2⟩
  · rintro ⟨rfl, h1, rfl⟩
    exact ⟨rfl, by rw [h1]; exact StableHlo.Predicate.toInt_ofNat_small _ (by omega), rfl⟩

/-- The same for a masked update. -/
theorem land_m_iff (x5 : (⟨S128x768, .i32⟩ : BufTy).Contents (Elt Ideal))
    (hr : ∀ (b : Fin 128) (n : Fin 768), 0 ≤ (x5 (ix2 b n)).toInt)
    (b' : Fin 128) (n : Fin 768) (k' : Fin 512) (b : Fin 128) (t : Fin 1024) (k : Fin 512) :
    scatter_S128x1024x512_S128x768x2_S128x768x512_2_01_01_2.resultIdx? (ix3 b' n k') (Read.val_main_v41 (F := Ideal) x5)
        = some (ix3 b t k)
      ↔ (b' = b ∧ x5 (ix2 b' n) = BitVec.ofNat 32 t.val ∧ k' = k) := by
  rw [resultIdx_m_iff, idx41_batch, idx41_pos x5 b' n (hr b' n)]
  show ((BitVec.ofNat 32 b'.val).toInt = (b.val : Int) ∧ (x5 (ix2 b' n)).toInt = (t.val : Int) ∧ k'.val = k.val) ↔ _
  rw [StableHlo.Predicate.toInt_ofNat_small b'.val (by omega)]
  constructor
  · rintro ⟨h0, h1, h2⟩
    exact ⟨Fin.ext (by exact_mod_cast h0),
      BitVec.eq_of_toInt_eq (h1.trans (StableHlo.Predicate.toInt_ofNat_small t.val (by omega)).symm), Fin.ext h2⟩
  · rintro ⟨rfl, h1, rfl⟩
    exact ⟨rfl, by rw [h1]; exact StableHlo.Predicate.toInt_ofNat_small _ (by omega), rfl⟩

/-- The array the masked rows are scattered into is zero everywhere. -/
theorem v27_zero (i : S128x1024x512.Idx) : Read.val_main_v27 (F := Ideal) i = 0 := by
  rw [Read.val_main_v27_apply, Read.val_main_cst_4_apply]
  exact Ideal.ofBits_zero_f32

theorem ref_eq (x0 x1 : (⟨S128x256x512, .f32⟩ : BufTy).Contents (Elt Ideal)) (x2 : (⟨S128x768x512, .f32⟩ : BufTy).Contents (Elt Ideal))
    (x3 x4 : (⟨S512, .f32⟩ : BufTy).Contents (Elt Ideal)) (x5 : (⟨S128x768, .i32⟩ : BufTy).Contents (Elt Ideal))
    (x6 : (⟨S128x256, .i32⟩ : BufTy).Contents (Elt Ideal)) (hok : Cert.Spec.IdsOk x5 x6) :
    Read.val_main_v57 (F := Ideal) x0 x1 x2 x3 x4 x5 x6 = Cert.Spec.decArr x0 x1 x2 x3 x4 x5 x6 := by
  funext i
  obtain ⟨b, t, k, rfl⟩ : ∃ (b : Fin 128) (t : Fin 1024) (k : Fin 512), i = ix3 b t k := ⟨i 0, i 1, i 2, eq_ix3 i⟩
  have hru : ∀ (b : Fin 128) (n : Fin 256), 0 ≤ (x6 (ix2 b n)).toInt := fun b n => (hok.range_u b n).1
  have hrm : ∀ (b : Fin 128) (n : Fin 768), 0 ≤ (x5 (ix2 b n)).toInt := fun b n => (hok.range_m b n).1
  show _ = Cert.Spec.sample (fun n j => x0 (ix3 b n j)) (fun n j => x1 (ix3 b n j)) (fun n j => x2 (ix3 b n j))
    (fun j => x3 (ix1 j)) (fun j => x4 (ix1 j)) (fun n => x5 (ix2 b n)) (fun n => x6 (ix2 b n)) t k
  unfold Read.val_main_v57
  by_cases hu : ∃ n : Fin 256, x6 (ix2 b n) = BitVec.ofNat 32 t.val
  · -- a visible row goes to position `t`: its update is the only one landing there
    obtain ⟨n0, hn0⟩ := hu
    refine (Cert.Lib.scatter_set_apply_of_unique _ _ _ _ (ix3 b t k) (ix3 b n0 k)
      ((land_u_iff x6 hru b n0 k b t k).mpr ⟨rfl, hn0, rfl⟩) ?_).trans ?_
    · intro j' hj'
      obtain ⟨b', n', k', rfl⟩ : ∃ (b' : Fin 128) (n' : Fin 256) (k' : Fin 512), j' = ix3 b' n' k' :=
        ⟨j' 0, j' 1, j' 2, eq_ix3 j'⟩
      obtain ⟨rfl, h1, rfl⟩ := (land_u_iff x6 hru b' n' k' b t k).mp hj'
      rw [hok.inj_u b' n' n0 (h1.trans hn0.symm)]
    · rw [ln_apply]
      exact (Cert.Spec.sample_of_unmask_hit (fun n j => x0 (ix3 b n j)) (fun n j => x1 (ix3 b n j)) (fun n j => x2 (ix3 b n j))
        (fun j => x3 (ix1 j)) (fun j => x4 (ix1 j)) (fun n => x5 (ix2 b n)) (fun n => x6 (ix2 b n)) t k n0 hn0
        (hok.inj_u b) (hok.disj b)).symm
  · -- no visible row goes to position `t`: the result is what the masked rows' scatter left there
    refine (Cert.Lib.scatter_set_apply_of_none _ _ _ _ (ix3 b t k) ?_).trans ?_
    · intro j' hj'
      obtain ⟨b', n', k', rfl⟩ : ∃ (b' : Fin 128) (n' : Fin 256) (k' : Fin 512), j' = ix3 b' n' k' :=
        ⟨j' 0, j' 1, j' 2, eq_ix3 j'⟩
      obtain ⟨rfl, h1, rfl⟩ := (land_u_iff x6 hru b' n' k' b t k).mp hj'
      exact hu ⟨n', h1⟩
    · unfold Read.val_main_v42
      by_cases hm : ∃ n : Fin 768, x5 (ix2 b n) = BitVec.ofNat 32 t.val
      · obtain ⟨n0, hn0⟩ := hm
        refine (Cert.Lib.scatter_set_apply_of_unique _ _ _ _ (ix3 b t k) (ix3 b n0 k)
          ((land_m_iff x5 hrm b n0 k b t k).mpr ⟨rfl, hn0, rfl⟩) ?_).trans ?_
        · intro j' hj'
          obtain ⟨b', n', k', rfl⟩ : ∃ (b' : Fin 128) (n' : Fin 768) (k' : Fin 512), j' = ix3 b' n' k' :=
            ⟨j' 0, j' 1, j' 2, eq_ix3 j'⟩
          obtain ⟨rfl, h1, rfl⟩ := (land_m_iff x5 hrm b' n' k' b t k).mp hj'
          rw [hok.inj_m b' n' n0 (h1.trans hn0.symm)]
        · exact (Cert.Spec.sample_of_mask_hit (fun n j => x0 (ix3 b n j)) (fun n j => x1 (ix3 b n j)) (fun n j => x2 (ix3 b n j))
            (fun j => x3 (ix1 j)) (fun j => x4 (ix1 j)) (fun n => x5 (ix2 b n)) (fun n => x6 (ix2 b n)) t k n0 hn0
            (hok.inj_m b) (hok.disj b)).symm
      · refine (Cert.Lib.scatter_set_apply_of_none _ _ _ _ (ix3 b t k) ?_).trans ?_
        · intro j' hj'
          obtain ⟨b', n', k', rfl⟩ : ∃ (b' : Fin 128) (n' : Fin 768) (k' : Fin 512), j' = ix3 b' n' k' :=
            ⟨j' 0, j' 1, j' 2, eq_ix3 j'⟩
          obtain ⟨rfl, h1, rfl⟩ := (land_m_iff x5 hrm b' n' k' b t k).mp hj'
          exact hm ⟨n', h1⟩
        · rw [v27_zero]
          exact (Cert.Spec.sample_of_no_hit (fun n j => x0 (ix3 b n j)) (fun n j => x1 (ix3 b n j)) (fun n j => x2 (ix3 b n j))
            (fun j => x3 (ix1 j)) (fun j => x4 (ix1 j)) (fun n => x5 (ix2 b n)) (fun n => x6 (ix2 b n)) t k
            (fun n h => hm ⟨n, h⟩) (fun n h => hu ⟨n, h⟩)).symm

end Cert.ReferenceIdeal.RefValue

end
-- ==== Proof.PreDecode.lean ====
import proofs.«422696_j35751307772079_3_alg».proof.Proof.Gen.Pre_finite_inputs
import proofs.«422696_j35751307772079_3_alg».proof.Proof.Spec
import Idealize.ShloMosaic.Lib.ReduceAll
import Idealize.ShloMosaic.Lib.StableHlo.Predicate
import Idealize.ShloMosaic.Lib.ValueIdx

/-! # What the precondition says: real entries, positions in range, pairwise distinct, masked and visible disjoint -/

noncomputable section

namespace Cert.Pre_finite_inputs.Decode

open Cert.Pre_finite_inputs Idealize.ShloMosaic Idealize.ShloMosaic.ValueIdx

/-- The scalar shape has one index. -/
instance subsingleton_S_ : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- The binary32 word of +∞ denotes the top extended real. -/
theorem inf_eq_top : Ideal.ofBits .f32 0x7F800000#32 = (⊤ : EReal) := by
  simp [Ideal.ofBits, Ideal.ieee]

/-- An extended real whose absolute value is below +∞ is a real. -/
theorem real_of_abs_lt (x : EReal)
    (h : Ideal.cmp .olt (max x (-x)) (Ideal.ofBits .f32 0x7F800000#32) = 1#1) : ∃ r : ℝ, x = (r : EReal) := by
  rw [inf_eq_top] at h
  have h' : max x (-x) < ⊤ := by
    unfold Ideal.cmp at h
    simpa [ofBool_eq_one] using h
  induction x using EReal.rec with
  | bot => simp at h'
  | coe r => exact ⟨r, rfl⟩
  | top => simp at h'

/-- Two naturals below 2 ^ 32 with the same 32-bit word are equal. -/
theorem ofNat_inj {n n' : Nat} (hn : n < 2 ^ 32) (hn' : n' < 2 ^ 32) (e : BitVec.ofNat 32 n = BitVec.ofNat 32 n') :
    n = n' := by
  have e' := congrArg BitVec.toNat e
  simp only [BitVec.toNat_ofNat] at e'
  rwa [Nat.mod_eq_of_lt hn, Nat.mod_eq_of_lt hn'] at e'

/-- The masked positions spread along the third axis, read at (b, n, n'): the position of row n. -/
theorem bc_m01 (hb : S128x768.BroadcastsInDim S128x768x768 (![0, 1] : Fin 2 → Fin S128x768x768.rank)) (x : IVec S128x768 32)
    (b : Fin 128) (n n' : Fin 768) : broadcastInDim S128x768x768 ![0, 1] hb x (ix3 b n n') = x (ix2 b n) := by
  unfold broadcastInDim
  refine congrArg x (funext fun a => ?_)
  fin_cases a <;> rfl

/-- The masked positions spread along the second axis, read at (b, n, n'): the position of row n'. -/
theorem bc_m02 (hb : S128x768.BroadcastsInDim S128x768x768 (![0, 2] : Fin 2 → Fin S128x768x768.rank)) (x : IVec S128x768 32)
    (b : Fin 128) (n n' : Fin 768) : broadcastInDim S128x768x768 ![0, 2] hb x (ix3 b n n') = x (ix2 b n') := by
  unfold broadcastInDim
  refine congrArg x (funext fun a => ?_)
  fin_cases a <;> rfl

/-- The visible positions spread along the third axis, read at (b, n, n'): the position of row n. -/
theorem bc_u01 (hb : S128x256.BroadcastsInDim S128x256x256 (![0, 1] : Fin 2 → Fin S128x256x256.rank)) (x : IVec S128x256 32)
    (b : Fin 128) (n n' : Fin 256) : broadcastInDim S128x256x256 ![0, 1] hb x (ix3 b n n') = x (ix2 b n) := by
  unfold broadcastInDim
  refine congrArg x (funext fun a => ?_)
  fin_cases a <;> rfl

/-- The visible positions spread along the second axis, read at (b, n, n'): the position of row n'. -/
theorem bc_u02 (hb : S128x256.BroadcastsInDim S128x256x256 (![0, 2] : Fin 2 → Fin S128x256x256.rank)) (x : IVec S128x256 32)
    (b : Fin 128) (n n' : Fin 256) : broadcastInDim S128x256x256 ![0, 2] hb x (ix3 b n n') = x (ix2 b n') := by
  unfold broadcastInDim
  refine congrArg x (funext fun a => ?_)
  fin_cases a <;> rfl

/-- The masked positions spread along the visible axis, read at (b, n, n'): the position of masked row n. -/
theorem bc_d01 (hb : S128x768.BroadcastsInDim S128x768x256 (![0, 1] : Fin 2 → Fin S128x768x256.rank)) (x : IVec S128x768 32)
    (b : Fin 128) (n : Fin 768) (n' : Fin 256) : broadcastInDim S128x768x256 ![0, 1] hb x (ix3 b n n') = x (ix2 b n) := by
  unfold broadcastInDim
  refine congrArg x (funext fun a => ?_)
  fin_cases a <;> rfl

/-- The visible positions spread along the masked axis, read at (b, n, n'): the position of visible row n'. -/
theorem bc_d02 (hb : S128x256.BroadcastsInDim S128x768x256 (![0, 2] : Fin 2 → Fin S128x768x256.rank)) (x : IVec S128x256 32)
    (b : Fin 128) (n : Fin 768) (n' : Fin 256) : broadcastInDim S128x768x256 ![0, 2] hb x (ix3 b n n') = x (ix2 b n') := by
  unfold broadcastInDim
  refine congrArg x (funext fun a => ?_)
  fin_cases a <;> rfl

theorem of_pre (x0 x1 : FVec Ideal S128x256x512 .f32) (x2 : FVec Ideal S128x768x512 .f32) (x3 x4 : FVec Ideal S512 .f32)
    (x5 : IVec S128x768 32) (x6 : IVec S128x256 32)
    (h : Cert.Pre_finite_inputs.fn (F := Ideal) x0 x1 x2 x3 x4 x5 x6 = fun _ => 1#1) :
    Cert.Spec.AllReal x0 ∧ Cert.Spec.AllReal x1 ∧ Cert.Spec.AllReal x2 ∧ Cert.Spec.AllReal x3 ∧ Cert.Spec.AllReal x4
      ∧ Cert.Spec.IdsOk x5 x6 := by
  have h0 := congrFun h ValueIdx.ix0
  dsimp only [fn, fn_part1, fn_part2, fn_part3] at h0
  -- the ten tests, from the last to the first
  obtain ⟨h0, hdj⟩ := IntOp.andi_eq_one.1 h0
  obtain ⟨h0, hpu⟩ := IntOp.andi_eq_one.1 h0
  obtain ⟨h0, hpm⟩ := IntOp.andi_eq_one.1 h0
  obtain ⟨h0, hru⟩ := IntOp.andi_eq_one.1 h0
  obtain ⟨h0, hrm⟩ := IntOp.andi_eq_one.1 h0
  obtain ⟨h0, hf4⟩ := IntOp.andi_eq_one.1 h0
  obtain ⟨h0, hf3⟩ := IntOp.andi_eq_one.1 h0
  obtain ⟨h0, hf2⟩ := IntOp.andi_eq_one.1 h0
  obtain ⟨hf0, hf1⟩ := IntOp.andi_eq_one.1 h0
  -- each test holds at every index
  have a0 := Host.reduce_andi_all _ _ _ _ _ hf0
  have a1 := Host.reduce_andi_all _ _ _ _ _ hf1
  have a2 := Host.reduce_andi_all _ _ _ _ _ hf2
  have a3 := Host.reduce_andi_all _ _ _ _ _ hf3
  have a4 := Host.reduce_andi_all _ _ _ _ _ hf4
  have rm := Host.reduce_andi_all _ _ _ _ _ hrm
  have ru := Host.reduce_andi_all _ _ _ _ _ hru
  have pm := Host.reduce_andi_all _ _ _ _ _ hpm
  have pu := Host.reduce_andi_all _ _ _ _ _ hpu
  have dj := Host.reduce_andi_all _ _ _ _ _ hdj
  have z : (0#32 : BitVec 32).toInt = 0 := by decide
  have k : (1024#32 : BitVec 32).toInt = 1024 := by decide
  refine ⟨fun i => real_of_abs_lt _ (a0 i), fun i => real_of_abs_lt _ (a1 i), fun i => real_of_abs_lt _ (a2 i),
    fun i => real_of_abs_lt _ (a3 i), fun i => real_of_abs_lt _ (a4 i),
    ⟨fun b n => ?_, fun b n => ?_, fun b n n' e => ?_, fun b n n' e => ?_, fun b n n' e => ?_⟩⟩
  · -- a masked position is in [0, 1024)
    obtain ⟨h1, h2⟩ := IntOp.andi_eq_one.1 (rm (ix2 b n))
    have h1' : (0#32 : BitVec 32).toInt ≤ (x5 (ix2 b n)).toInt := IntOp.cmpi_sge.1 h1
    have h2' : (x5 (ix2 b n)).toInt < (1024#32 : BitVec 32).toInt := IntOp.cmpi_slt.1 h2
    rw [z] at h1'; rw [k] at h2'
    exact ⟨h1', h2'⟩
  · -- a visible position is in [0, 1024)
    obtain ⟨h1, h2⟩ := IntOp.andi_eq_one.1 (ru (ix2 b n))
    have h1' : (0#32 : BitVec 32).toInt ≤ (x6 (ix2 b n)).toInt := IntOp.cmpi_sge.1 h1
    have h2' : (x6 (ix2 b n)).toInt < (1024#32 : BitVec 32).toInt := IntOp.cmpi_slt.1 h2
    rw [z] at h1'; rw [k] at h2'
    exact ⟨h1', h2'⟩
  · -- two masked rows with one position are one row
    rcases IntOp.ori_eq_one.1 (pm (ix3 b n n')) with hne | heq
    · have hne' := IntOp.cmpi_ne.1 hne
      rw [bc_m01, bc_m02] at hne'
      exact absurd e hne'
    · have heq' : BitVec.ofNat 32 n.val = BitVec.ofNat 32 n'.val := IntOp.cmpi_eq.1 heq
      exact Fin.ext (ofNat_inj (by omega) (by omega) heq')
  · -- two visible rows with one position are one row
    rcases IntOp.ori_eq_one.1 (pu (ix3 b n n')) with hne | heq
    · have hne' := IntOp.cmpi_ne.1 hne
      rw [bc_u01, bc_u02] at hne'
      exact absurd e hne'
    · have heq' : BitVec.ofNat 32 n.val = BitVec.ofNat 32 n'.val := IntOp.cmpi_eq.1 heq
      exact Fin.ext (ofNat_inj (by omega) (by omega) heq')
  · -- a masked row and a visible row have different positions
    have hne' := IntOp.cmpi_ne.1 (dj (ix3 b n n'))
    rw [bc_d01, bc_d02] at hne'
    exact hne' e

end Cert.Pre_finite_inputs.Decode

end
-- ==== Proof.lean ====
import proofs.«422696_j35751307772079_3_alg».proof.Defs
import proofs.«422696_j35751307772079_3_alg».proof.Proof.Gen.Kernel
import proofs.«422696_j35751307772079_3_alg».proof.Proof.Gen.Kernel.Skeleton
import proofs.«422696_j35751307772079_3_alg».proof.Proof.Gen.Kernel.Launch
import proofs.«422696_j35751307772079_3_alg».proof.Proof.Gen.Kernel.Points
import proofs.«422696_j35751307772079_3_alg».proof.Proof.Gen.Kernel.Frame
import proofs.«422696_j35751307772079_3_alg».proof.Proof.Gen.KernelIdeal
import proofs.«422696_j35751307772079_3_alg».proof.Proof.Gen.KernelIdeal.Skeleton
import proofs.«422696_j35751307772079_3_alg».proof.Proof.Gen.KernelIdeal.Launch
import proofs.«422696_j35751307772079_3_alg».proof.Proof.Gen.KernelIdeal.Points
import proofs.«422696_j35751307772079_3_alg».proof.Proof.Gen.KernelIdeal.Frame
import proofs.«422696_j35751307772079_3_alg».proof.Proof.Gen.ReferenceIdeal
import proofs.«422696_j35751307772079_3_alg».proof.Proof.Gen.Pre_finite_inputs
import proofs.«422696_j35751307772079_3_alg».proof.Proof.Gen.KernelIdeal.Value
import proofs.«422696_j35751307772079_3_alg».proof.Proof.Gen.ReferenceIdeal.Run
import proofs.«422696_j35751307772079_3_alg».proof.Proof.Gen.ReferenceIdeal.Read
import proofs.«422696_j35751307772079_3_alg».proof.Proof.Spec
import proofs.«422696_j35751307772079_3_alg».proof.Proof.KernelBlocks
import proofs.«422696_j35751307772079_3_alg».proof.Proof.RefValue
import proofs.«422696_j35751307772079_3_alg».proof.Proof.PreDecode
import Idealize.ShloMosaic.Adequacy
import Idealize.ShloMosaic.Init

/-! # The kernel scatters rows by one-hot matrix products; the reference scatters them by index

One sample has 768 masked rows and 256 visible rows, the visible ones layer-normalised sums of an encoder row and a
position row; every row carries the position in `[0, 1024)` it goes to. The kernel forms, per sample, the 1024 × 1024
matrix whose entry `(t, n)` is one when row `n` goes to position `t`, and multiplies it with the rows (each row split
into a half and the remainder `v - v`, which is zero for a real `v`): position `t` receives the SUM of the rows sent
there. The reference writes each row to its position, masked rows first, visible rows after. Under the precondition —
real entries, positions in range, pairwise distinct within the masked and within the visible rows, and no masked row
sharing a position with a visible one — at most one row goes to each position, so the sum has at most one term and
both programs leave, at every position, that row, or zero where no row goes. -/

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two round trips through bf16 that the idealized kernel drops: of the masked rows and of the normalised rows. -/
theorem preserves : Cert.preserves_Kernel_KernelIdeal :=
  ⟨IdealRules.truncf_extf.statement _ .f32 .bf16, IdealRules.truncf_extf.statement _ .f32 .bf16⟩

/-- Both programs end with the specified array of the (agreeing) arguments. -/
theorem algebraic : Cert.algebraic_KernelIdeal_ReferenceIdeal := by
  intro m ρ m' ρ' hpre hagree
  have hdec := fun c => Cert.Pre_finite_inputs.Decode.of_pre _ _ _ _ _ _ _ (hpre c)
  refine ⟨fun c => Cert.KernelIdeal.Blocks.G m c,
    Cert.KernelIdeal.Blocks.run m ρ (fun c => ⟨(hdec c).1, (hdec c).2.1, (hdec c).2.2.1, (hdec c).2.2.2.1, (hdec c).2.2.2.2.1⟩), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, (hagree c).1, (hagree c).2.1, (hagree c).2.2.1, (hagree c).2.2.2.1,
    (hagree c).2.2.2.2.1, (hagree c).2.2.2.2.2.1, (hagree c).2.2.2.2.2.2]
  exact Cert.ReferenceIdeal.RefValue.ref_eq _ _ _ _ _ _ _ (hdec c).2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
